-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x1600000 : Shape := ⟨2, ![2, 1600000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1433x32 : Shape := ⟨2, ![1433, 32]⟩
abbrev S32x7 : Shape := ⟨2, ![32, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x64 : S_.BroadcastsInDim S1433x64 (![] : Fin 0 → Fin S1433x64.rank)
  reducesTo_S1433x64_S_d0_1 : S1433x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1433x32 : S_.BroadcastsInDim S1433x32 (![] : Fin 0 → Fin S1433x32.rank)
  reducesTo_S1433x32_S_d0_1 : S1433x32.ReducesTo [0, 1] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S32x7 .f32) (main_arg9 : FVec F S7 .f32) (main_v33 : IVec S_ 1) : IVec S_ 1 :=
  let main_v34 : FVec F S32x7 .f32 := Host.absf main_arg8
  let main_cst_12 : FVec F S_ .f32 := constant S_ .f32 0x7F800000#32
  let main_v35 : FVec F S32x7 .f32 := broadcastInDim S32x7 ![] bcast_S_S32x7 main_cst_12
  let main_v36 : IVec S32x7 1 := cmpf .olt main_v34 main_v35
  let main_c_13 : IVec S_ 1 := constantI S_ 1 1#1
  let main_v37 : IVec S_ 1 := (fun x v => Host.reduce IntOp.andi x v reducesTo_S32x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg5 : FVec F S32 .f32) (main_arg6 : FVec F S1433x32 .f32) (main_arg7 : FVec F S32 .f32) (main_arg8 : FVec F S32x7 .f32) (main_arg9 : FVec F S7 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1433x32 .f32 := Host.absf main_arg6
  let main_cst_8 : FVec F S_ .f32 := constant S_ .f32 0x7F800000#32
  let main_v25 : FVec F S1433x32 .f32 := broadcastInDim S1433x32 ![] bcast_S_S1433x32 main_cst_8
  let main_v26 : IVec S1433x32 1 := cmpf .olt main_v24 main_v25
  let main_c_9 : IVec S_ 1 := constantI S_ 1 1#1
  let main_v27 : IVec S_ 1 := (fun x v => Host.reduce IntOp.andi x v reducesTo_S1433x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x1433 .f32) (main_arg1 : IVec S2x1600000 32) (main_arg2 : FVec F S1433x64 .f32) (main_arg3 : FVec F S64 .f32) (main_arg4 : FVec F S64x32 .f32) (main_arg5 : FVec F S32 .f32) (main_arg6 : FVec F S1433x32 .f32) (main_arg7 : FVec F S32 .f32) (main_arg8 : FVec F S32x7 .f32) (main_arg9 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x64 .f32 := Host.absf main_arg2
  let main_cst_0 : FVec F S_ .f32 := constant S_ .f32 0x7F800000#32
  let main_v5 : FVec F S1433x64 .f32 := broadcastInDim S1433x64 ![] bcast_S_S1433x64 main_cst_0
  let main_v6 : IVec S1433x64 1 := cmpf .olt main_v4 main_v5
  let main_c_1 : IVec S_ 1 := constantI S_ 1 1#1
  let main_v7 : IVec S_ 1 := (fun x v => Host.reduce IntOp.andi x v reducesTo_S1433x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S50000x1433 : Shape := ⟨2, ![50000, 1433]⟩
abbrev S2x1600000 : Shape := ⟨2, ![2, 1600000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1433x32 : Shape := ⟨2, ![1433, 32]⟩
abbrev S32x7 : Shape := ⟨2, ![32, 7]⟩
abbrev S7 : Shape := ⟨1, ![7]⟩
abbrev S1433x96 : Shape := ⟨2, ![1433, 96]⟩
abbrev S_ : Shape := ⟨0, ![]⟩
abbrev S96 : Shape := ⟨1, ![96]⟩
abbrev S1x96 : Shape := ⟨2, ![1, 96]⟩
abbrev S50000x96 : Shape := ⟨2, ![50000, 96]⟩
abbrev S2000x1433 : Shape := ⟨2, ![2000, 1433]⟩
abbrev S2000x96 : Shape := ⟨2, ![2000, 96]⟩
abbrev S50000x64 : Shape := ⟨2, ![50000, 64]⟩
abbrev S50000x32 : Shape := ⟨2, ![50000, 32]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S1650000x1 : Shape := ⟨2, ![1650000, 1]⟩
abbrev S1650000x64 : Shape := ⟨2, ![1650000, 64]⟩
abbrev S1x64 : Shape := ⟨2, ![1, 64]⟩
abbrev S1x32 : Shape := ⟨2, ![1, 32]⟩
abbrev S1x7 : Shape := ⟨2, ![1, 7]⟩
abbrev S50000x7 : Shape := ⟨2, ![50000, 7]⟩
abbrev S50000x1 : Shape := ⟨2, ![50000, 1]⟩
abbrev S2000x64 : Shape := ⟨2, ![2000, 64]⟩
abbrev S2000x32 : Shape := ⟨2, ![2000, 32]⟩
abbrev S2000x7 : Shape := ⟨2, ![2000, 7]⟩
abbrev S2000x1 : Shape := ⟨2, ![2000, 1]⟩
abbrev S2000 : Shape := ⟨1, ![2000]⟩

abbrev nBuf : Space → Nat
  | .hbm => 78
  | .vmem => 21
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1433x32, .f32⟩
  | .hbm, ⟨7, _⟩ => ⟨S32, .f32⟩
  | .hbm, ⟨8, _⟩ => ⟨S32x7, .f32⟩
  | .hbm, ⟨9, _⟩ => ⟨S7, .f32⟩
  | .hbm, ⟨10, _⟩ => ⟨S50000x1433, .bf16⟩
  | .hbm, ⟨11, _⟩ => ⟨S1433x96, .f32⟩
  | .hbm, ⟨12, _⟩ => ⟨S1433x96, .bf16⟩
  | .hbm, ⟨13, _⟩ => ⟨S_, .f32⟩
  | .hbm, ⟨14, _⟩ => ⟨S64, .f32⟩
  | .hbm, ⟨15, _⟩ => ⟨S96, .f32⟩
  | .hbm, ⟨16, _⟩ => ⟨S1x96, .f32⟩
  | .hbm, ⟨17, _⟩ => ⟨S50000x96, .f32⟩
  | .hbm, ⟨18, _⟩ => ⟨S50000x64, .f32⟩
  | .hbm, ⟨19, _⟩ => ⟨S50000x32, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S50000, .i32⟩
  | .hbm, ⟨25, _⟩ => ⟨S1650000, .i32⟩
  | .hbm, ⟨26, _⟩ => ⟨S1650000, .i32⟩
  | .hbm, ⟨27, _⟩ => ⟨S_, .f32⟩
  | .hbm, ⟨28, _⟩ => ⟨S1650000, .f32⟩
  | .hbm, ⟨29, _⟩ => ⟨S_, .f32⟩
  | .hbm, ⟨30, _⟩ => ⟨S50000, .f32⟩
  | .hbm, ⟨31, _⟩ => ⟨S1650000x1, .i32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000, .f32⟩
  | .hbm, ⟨52, _⟩ => ⟨S1650000, .f32⟩
  | .hbm, ⟨53, _⟩ => ⟨S_, .i32⟩
  | .hbm, ⟨54, _⟩ => ⟨S1650000, .i32⟩
  | .hbm, ⟨55, _⟩ => ⟨S1650000, .i1⟩
  | .hbm, ⟨56, _⟩ => ⟨S_, .i32⟩
  | .hbm, ⟨57, _⟩ => ⟨S1650000, .i32⟩
  | .hbm, ⟨58, _⟩ => ⟨S1650000, .i32⟩
  | .hbm, ⟨59, _⟩ => ⟨S1650000, .i32⟩
  | .hbm, ⟨60, _⟩ => ⟨S1650000x1, .i32⟩
  | .hbm, ⟨61, _⟩ => ⟨S1650000x64, .f32⟩
  | .hbm, ⟨62, _⟩ => ⟨S1650000x1, .f32⟩
  | .hbm, ⟨63, _⟩ => ⟨S1650000x64, .f32⟩
  | .hbm, ⟨64, _⟩ => ⟨S1650000x64, .f32⟩
  | .hbm, ⟨65, _⟩ => ⟨S_, .f32⟩
  | .hbm, ⟨66, _⟩ => ⟨S50000x64, .f32⟩
  | .hbm, ⟨67, _⟩ => ⟨S1650000x1, .i32⟩
  | .hbm, ⟨68, _⟩ => ⟨S50000x64, .f32⟩
  | .hbm, ⟨69, _⟩ => ⟨S1x64, .f32⟩
  | .hbm, ⟨70, _⟩ => ⟨S1x32, .f32⟩
  | .hbm, ⟨71, _⟩ => ⟨S1x7, .f32⟩
  | .hbm, ⟨72, _⟩ => ⟨S64x32, .bf16⟩
  | .hbm, ⟨73, _⟩ => ⟨S32x7, .bf16⟩
  | .hbm, ⟨74, _⟩ => ⟨S50000x7, .f32⟩
  | .hbm, ⟨75, _⟩ => ⟨S50000x1, .f32⟩
  | .hbm, ⟨76, _⟩ => ⟨S50000x32, .f32⟩
  | .hbm, ⟨77, _⟩ => ⟨S50000, .f32⟩
  | .local _ .vmem, ⟨0, _⟩ => ⟨S2000x1433, .bf16⟩
  | .local _ .vmem, ⟨1, _⟩ => ⟨S2000x1433, .bf16⟩
  | .local _ .vmem, ⟨2, _⟩ => ⟨S1433x96, .bf16⟩
  | .local _ .vmem, ⟨3, _⟩ => ⟨S1x96, .f32⟩
  | .local _ .vmem, ⟨4, _⟩ => ⟨S2000x96, .f32⟩
  | .local _ .vmem, ⟨5, _⟩ => ⟨S2000x96, .f32⟩
  | .local _ .vmem, ⟨6, _⟩ => ⟨S2000x64, .f32⟩
  | .local _ .vmem, ⟨7, _⟩ => ⟨S2000x64, .f32⟩
  | .local _ .vmem, ⟨8, _⟩ => ⟨S2000x32, .f32⟩
  | .local _ .vmem, ⟨9, _⟩ => ⟨S2000x32, .f32⟩
  | .local _ .vmem, ⟨10, _⟩ => ⟨S1x64, .f32⟩
  | .local _ .vmem, ⟨11, _⟩ => ⟨S64x32, .bf16⟩
  | .local _ .vmem, ⟨12, _⟩ => ⟨S1x32, .f32⟩
  | .local _ .vmem, ⟨13, _⟩ => ⟨S32x7, .bf16⟩
  | .local _ .vmem, ⟨14, _⟩ => ⟨S1x7, .f32⟩
  | .local _ .vmem, ⟨15, _⟩ => ⟨S2000x7, .f32⟩
  | .local _ .vmem, ⟨16, _⟩ => ⟨S2000x7, .f32⟩
  | .local _ .vmem, ⟨17, _⟩ => ⟨S2000x1, .f32⟩
  | .local _ .vmem, ⟨18, _⟩ => ⟨S2000x1, .f32⟩
  | .local _ .vmem, ⟨19, _⟩ => ⟨S2000x32, .f32⟩
  | .local _ .vmem, ⟨20, _⟩ => ⟨S2000x32, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev main_v54_2 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x7 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x7 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x7 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  concatenates_S1433x64_S1433x32_S1433x96_d1 : Shape.Concatenates [S1433x64, S1433x32] S1433x96 1
  bcast_S_S64 : S_.BroadcastsInDim S64 (![] : Fin 0 → Fin S64.rank)
  concatenates_S64_S32_S96_d0 : Shape.Concatenates [S64, S32] S96 0
  shapeCasts_S96_S1x96 : S96.ShapeCasts S1x96
  inb_S2000x1433_S2000x1433_0_0 : ∀ a, (![0, 0] : Fin 2 → Nat) a + S2000x1433.size a ≤ S2000x1433.size a
  h_S2000x1433 : 0 < S2000x1433.numel
  shapeCasts_S2000x1433_S2000x1433 : S2000x1433.ShapeCasts S2000x1433
  inb_S1433x96_S1433x96_0_0 : ∀ a, (![0, 0] : Fin 2 → Nat) a + S1433x96.size a ≤ S1433x96.size a
  h_S1433x96 : 0 < S1433x96.numel
  shapeCasts_S1433x96_S1433x96 : S1433x96.ShapeCasts S1433x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  slices_S50000x96_S50000x64_0_0 : S50000x96.Slices ![0, 0] S50000x64
  slices_S50000x96_S50000x32_0_64 : S50000x96.Slices ![0, 64] S50000x32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S32_S1x32 : S32.ShapeCasts S1x32
  shapeCasts_S7_S1x7 : S7.ShapeCasts S1x7
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x7_S32x7_0_0 : ∀ a, (![0, 0] : Fin 2 → Nat) a + S32x7.size a ≤ S32x7.size a
  h_S32x7 : 0 < S32x7.numel
  shapeCasts_S32x7_S32x7 : S32x7.ShapeCasts S32x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x32_S2000 : S2000x32.Reduces [1] S2000
  shapeCasts_S2000_S2000x1 : S2000.ShapeCasts S2000x1
  inb_S2000x7_S2000x7_0_0 : ∀ a, (![0, 0] : Fin 2 → Nat) a + S2000x7.size a ≤ S2000x7.size a
  h_S2000x7 : 0 < S2000x7.numel
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  dot_S2000x1433_S1433x96_S2000x96_1_0_0_1_n_n_wf : DotDims.WF S2000x1433 S1433x96 S2000x96 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x32_S2000x32_1_0_0_1_n_n_wf : DotDims.WF S2000x64 S64x32 S2000x32 [1] [0] [0] [1] [] []
  dot_S2000x32_S32x7_S2000x7_1_0_0_1_n_n_wf : DotDims.WF S2000x32 S32x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .bf16 = 32 ∨ (Rect.block (s := S50000x1433) S2000x1433.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x96.size a ≤ S1433x96.size a
  hwx0_1 : ∀ i : grid0.Coords, EltTy.bits .bf16 = 32 ∨ (Rect.block (s := S1433x96) S1433x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x7.size a ≤ S32x7.size a
  hwx1_5 : ∀ i : grid1.Coords, EltTy.bits .bf16 = 32 ∨ (Rect.block (s := S32x7) S32x7.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x7.size a ≤ S1x7.size a
  hwx1_6 : ∀ i : grid1.Coords, EltTy.bits .f32 = 32 ∨ (Rect.block (s := S1x7) S1x7.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x7.size a ≤ S50000x7.size a
  hwx1_7 : ∀ i : grid1.Coords, EltTy.bits .f32 = 32 ∨ (Rect.block (s := S50000x7) S2000x7.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S50000x1.size a
  hwx1_8 : ∀ i : grid1.Coords, EltTy.bits .f32 = 32 ∨ (Rect.block (s := S50000x1) S2000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x32.size a ≤ S50000x32.size a
  hwx1_9 : ∀ i : grid1.Coords, EltTy.bits .f32 = 32 ∨ (Rect.block (s := S50000x32) S2000x32.size (cc1_transform_9 i) (hinb1_9 i)).WholeWords (EltTy.packing .f32)

variable [Facts₀]

def dot_S2000x1433_S1433x96_S2000x96_1_0_0_1_n_n : DotDims S2000x1433 S1433x96 S2000x96 where
  lhsContracting := [1]
  rhsContracting := [0]
  lhsNonContracting := [0]
  rhsNonContracting := [1]
  lhsBatch := []
  rhsBatch := []
  wf := dot_S2000x1433_S1433x96_S2000x96_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x7_S2000x7_1_0_0_1_n_n : DotDims S2000x32 S32x7 S2000x7 where
  lhsContracting := [1]
  rhsContracting := [0]
  lhsNonContracting := [0]
  rhsNonContracting := [1]
  lhsBatch := []
  rhsBatch := []
  wf := dot_S2000x32_S32x7_S2000x7_1_0_0_1_n_n_wf

abbrev win0_0 : Pipeline.Window sig grid0 :=
  Pipeline.Window.ofSpec (Memref.whole main_v0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1433x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S32x7.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x7.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54_0) S2000x7.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v54_1) S2000x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v54_2) S2000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x1433 : Shape := ⟨2, ![50000, 1433]⟩
abbrev S2x1600000 : Shape := ⟨2, ![2, 1600000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1433x32 : Shape := ⟨2, ![1433, 32]⟩
abbrev S32x7 : Shape := ⟨2, ![32, 7]⟩
abbrev S7 : Shape := ⟨1, ![7]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S50000x64 : Shape := ⟨2, ![50000, 64]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x32 : Shape := ⟨2, ![50000, 32]⟩
abbrev S1x32 : Shape := ⟨2, ![1, 32]⟩
abbrev S50000x7 : Shape := ⟨2, ![50000, 7]⟩
abbrev S1x7 : Shape := ⟨2, ![1, 7]⟩

abbrev nBuf : Space → Nat
  | .hbm => 83
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1433x32, .f32⟩
  | .hbm, ⟨7, _⟩ => ⟨S32, .f32⟩
  | .hbm, ⟨8, _⟩ => ⟨S32x7, .f32⟩
  | .hbm, ⟨9, _⟩ => ⟨S7, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S50000x64, .f32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x64, .f32⟩
  | .hbm, ⟨53, _⟩ => ⟨S1650000x1, .f32⟩
  | .hbm, ⟨54, _⟩ => ⟨S1650000x64, .f32⟩
  | .hbm, ⟨55, _⟩ => ⟨S1650000x64, .f32⟩
  | .hbm, ⟨56, _⟩ => ⟨S_, .f32⟩
  | .hbm, ⟨57, _⟩ => ⟨S50000x64, .f32⟩
  | .hbm, ⟨58, _⟩ => ⟨S1650000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x32, .f32⟩
  | .hbm, ⟨67, _⟩ => ⟨S1x32, .f32⟩
  | .hbm, ⟨68, _⟩ => ⟨S50000x32, .f32⟩
  | .hbm, ⟨69, _⟩ => ⟨S50000x32, .f32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | .hbm, ⟨74, _⟩ => ⟨S50000x7, .f32⟩
  | .hbm, ⟨75, _⟩ => ⟨S1x7, .f32⟩
  | .hbm, ⟨76, _⟩ => ⟨S50000x7, .f32⟩
  | .hbm, ⟨77, _⟩ => ⟨S50000x7, .f32⟩
  | .hbm, ⟨78, _⟩ => ⟨S50000x32, .f32⟩
  | .hbm, ⟨79, _⟩ => ⟨S50000x32, .f32⟩
  | .hbm, ⟨80, _⟩ => ⟨S_, .f32⟩
  | .hbm, ⟨81, _⟩ => ⟨S50000, .f32⟩
  | .hbm, ⟨82, _⟩ => ⟨S50000, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x32_S50000_d1 : S50000x32.ReducesTo [1] S50000
  h_S_ : 0 < S_.numel
  dot_S50000x1433_S1433x64_S50000x64_1_0_0_1_n_n_wf : DotDims.WF S50000x1433 S1433x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  dot_S50000x1433_S1433x32_S50000x32_1_0_0_1_n_n_wf : DotDims.WF S50000x1433 S1433x32 S50000x32 [1] [0] [0] [1] [] []
  dot_S50000x32_S32x7_S50000x7_1_0_0_1_n_n_wf : DotDims.WF S50000x32 S32x7 S50000x7 [1] [0] [0] [1] [] []

variable [Facts₀]

def dot_S50000x1433_S1433x64_S50000x64_1_0_0_1_n_n : DotDims S50000x1433 S1433x64 S50000x64 where
  lhsContracting := [1]
  rhsContracting := [0]
  lhsNonContracting := [0]
  rhsNonContracting := [1]
  lhsBatch := []
  rhsBatch := []
  wf := dot_S50000x1433_S1433x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x1433_S1433x32_S50000x32_1_0_0_1_n_n : DotDims S50000x1433 S1433x32 S50000x32 where
  lhsContracting := [1]
  rhsContracting := [0]
  lhsNonContracting := [0]
  rhsNonContracting := [1]
  lhsBatch := []
  rhsBatch := []
  wf := dot_S50000x1433_S1433x32_S50000x32_1_0_0_1_n_n_wf
def dot_S50000x32_S32x7_S50000x7_1_0_0_1_n_n : DotDims S50000x32 S32x7 S50000x7 where
  lhsContracting := [1]
  rhsContracting := [0]
  lhsNonContracting := [0]
  rhsNonContracting := [1]
  lhsBatch := []
  rhsBatch := []
  wf := dot_S50000x32_S32x7_S50000x7_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«137820_j7103875908246_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.Spec.lean ====
/-
  What both programs compute, as functions of whole arrays over the extended reals.

  A node-feature matrix x [n, d] is projected twice: by W_gcn into the graph branch and, with a bias, by W_ps into
  the semantic embedding z_sem. The graph branch passes through an aggregation over the edges (kept abstract
  here: both programs apply the same one), a bias and the rectifier, then the affine layer z_topo = h W_pt + b_pt;
  the class scores are the affine layer z_topo W_cls + b_cls, and the anomaly score of a node is the Euclidean
  distance between its rows of z_topo and z_sem.

  * `proj X W`: the product with no bias, entry (r, c) = sum over k of X (r, k) * W (k, c);
  * `hidden G B`: the rectifier of G plus the bias row B repeated down the rows;
  * `dist Z S r`: the square root of the sum over the columns of row r of (Z - S) squared.
-/
import proofs.«137820_j7103875908246_1_alg».proof.Proof.LibDense
import proofs.«137820_j7103875908246_1_alg».proof.Proof.LibRectify

noncomputable section
namespace Cert.Bridge
open Idealize.ShloMosaic Idealize.ShloMosaic.ValueIdx Cert.Lib.Dense Cert.Lib.Rectify

/-- A matrix product with no bias: entry (r, c) is the sum over k of X (r, k) * W (k, c). -/
def proj {M K N : Nat} (X : (⟨2, ![M, K]⟩ : Shape).Idx → EReal) (W : (⟨2, ![K, N]⟩ : Shape).Idx → EReal) :
    (⟨2, ![M, N]⟩ : Shape).Idx → EReal := fun j => ∑ k : Fin K, X (ix2 (j 0) k) * W (ix2 k (j 1))

/-- The rectifier of G plus a bias row repeated down the rows. -/
def hidden {M N : Nat} (G : (⟨2, ![M, N]⟩ : Shape).Idx → EReal) (B : (⟨2, ![1, N]⟩ : Shape).Idx → EReal) :
    (⟨2, ![M, N]⟩ : Shape).Idx → EReal := relu (fun j => G j + B (ix2 0 (j 1)))

/-- The Euclidean distance between row r of Z and row r of S. -/
def dist {M N : Nat} (Z S : (⟨2, ![M, N]⟩ : Shape).Idx → EReal) (r : Fin M) : EReal :=
  Ideal.sqrt (∑ k : Fin N, (Z (ix2 r k) - S (ix2 r k)) * (Z (ix2 r k) - S (ix2 r k)))

/-- An affine layer whose bias row is the zero word everywhere is the bare product: adding zero changes nothing,
    at the infinities too. -/
theorem affine_zero_bias {M K N : Nat} (X : (⟨2, ![M, K]⟩ : Shape).Idx → EReal) (W : (⟨2, ![K, N]⟩ : Shape).Idx → EReal)
    (B : (⟨2, ![1, N]⟩ : Shape).Idx → EReal) (hB : ∀ i, B i = 0) : affine X W B = proj X W := by
  funext j
  unfold affine proj
  rw [hB, add_zero]

end Cert.Bridge
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KPay.lean ====
/-
  The four values the two kernel bodies store, each read at the extended reals as ONE function of the blocks the body
  loads, in the specification's words.

  * The first body stores an affine layer of its block of rows: the block product into a zero accumulator plus the bias
    row repeated down the block (`pay0`).
  * The second body adds a bias row to its block, rectifies, and applies an affine layer (`pay1`: the layer over the
    hidden block); a second affine layer over that value gives the class scores (`pay2`); and the square root of the
    row sums of the squared difference with another block gives, row by row, the Euclidean distance (`pay3`).

  A change of float format is the identity at the extended reals, so the narrowing of an operand before a product
  drops out, and a product of operands of any two formats is the same sum over the contracted coordinate.
-/
import proofs.«137820_j7103875908246_1_alg».proof.Proof.Gen.KernelIdeal.Skeleton
import proofs.«137820_j7103875908246_1_alg».proof.Proof.Spec
import proofs.«137820_j7103875908246_1_alg».proof.Proof.LibRowReduce
import proofs.«137820_j7103875908246_1_alg».proof.Proof.LibKeepdims

noncomputable section

namespace Cert.Bridge.Pay
open Idealize.ShloMosaic Idealize.ShloMosaic.ValueIdx Cert.Lib.Dense Cert.Lib.Rectify Cert.Bridge
open Cert.KernelIdeal Cert.KernelIdeal.Gen

/-- The product of an [M, K] block with a [K, N] block into a zero accumulator, at entry (r, c): the sum over k of
    X (r, k) * W (k, c), whatever the float formats of the two operands. -/
theorem matmul_zero_apply {φ₁ φ₂ : FTy} (M K N : Nat) (prec : Option ContractPrecision)
    (X : FVec Ideal ⟨2, ![M, K]⟩ φ₁) (W : FVec Ideal ⟨2, ![K, N]⟩ φ₂) (j : (⟨2, ![M, N]⟩ : Shape).Idx) :
    FloatOps.matmul (DotDims.plain M K N) prec X W (constant (F := Ideal) _ .f32 0x00000000#32) j
      = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- A row [1, N] repeated down M rows reads, at (r, c), the row's entry of column c. -/
theorem row_repeat_apply {M N : Nat} (b : (⟨2, ![1, N]⟩ : Shape).Idx → EReal)
    (bt : (⟨2, ![1, N]⟩ : Shape).Broadcasts ⟨2, ![M, N]⟩) (y : (⟨2, ![M, N]⟩ : Shape).Idx) :
    broadcastTo ⟨2, ![M, N]⟩ b bt y = b (ix2 0 (y 1)) := by
  refine broadcastTo_apply b bt y (ix2 0 (y 1)) ?_
  intro a
  match a with
  | ⟨0, _⟩ => simp
  | ⟨1, _⟩ =>
    show (y 1).val = if N = 1 then 0 else (y 1).val
    split_ifs with h
    · have := (y 1).isLt; simp at this; omega
    · rfl

/-- An affine layer as a vector unit writes it: the block product into a zero accumulator plus the bias row repeated
    down the block, for operands of any two float formats. -/
theorem layer {φ₁ φ₂ : FTy} {M K N : Nat} (x : FVec Ideal ⟨2, ![M, K]⟩ φ₁) (w : FVec Ideal ⟨2, ![K, N]⟩ φ₂)
    (b : FVec Ideal ⟨2, ![1, N]⟩ .f32) (bt : (⟨2, ![1, N]⟩ : Shape).Broadcasts ⟨2, ![M, N]⟩) :
    addf (matmul (DotDims.plain M K N) none x w (constant (F := Ideal) ⟨2, ![M, N]⟩ .f32 0x00000000#32))
        (broadcastTo ⟨2, ![M, N]⟩ b bt) = affine x w b := by
  funext y
  show FloatOps.matmul (DotDims.plain M K N) none x w (constant (F := Ideal) _ .f32 0x00000000#32) y
      + broadcastTo ⟨2, ![M, N]⟩ b bt y = _
  rw [matmul_zero_apply, row_repeat_apply]
  rfl

/-- The rectified block as a vector unit writes it, narrowed to another float format: the bias row repeated down the
    block is added, the maximum with a splat of the zero word is taken, and the narrowing is the identity at the
    extended reals; entry by entry this is the specification's hidden block. -/
theorem hidden_vec {ψ : FTy} {M N : Nat} (g : FVec Ideal ⟨2, ![M, N]⟩ .f32) (b : FVec Ideal ⟨2, ![1, N]⟩ .f32)
    (bt : (⟨2, ![1, N]⟩ : Shape).Broadcasts ⟨2, ![M, N]⟩) (hlt : ψ.bits < FTy.bits .f32) :
    (truncf ψ (maximumf (addf g (broadcastTo ⟨2, ![M, N]⟩ b bt))
        (broadcast ⟨2, ![M, N]⟩ (Scalar.ofBits (F := Ideal) .f32 0x00000000#32))) hlt : FVec Ideal ⟨2, ![M, N]⟩ ψ)
      = hidden g b := by
  funext y
  show relu1 (g y + broadcastTo ⟨2, ![M, N]⟩ b bt y) = relu1 (g y + b (ix2 0 (y 1)))
  rw [row_repeat_apply]

/-- Narrowing a block to another float format changes no entry at the extended reals. -/
theorem narrow_id {ψ : FTy} {S : Shape} (x : FVec Ideal S .f32) (hlt : ψ.bits < FTy.bits .f32) :
    (truncf ψ x hlt : S.Idx → EReal) = x := rfl

/-- The square root of the row sums of a squared difference, kept as a column: at row r the Euclidean distance between
    row r of the two blocks. The sum starts from the neutral word, so it is the bare sum over the columns. -/
theorem dist_vec {M N : Nat} (z s : FVec Ideal ⟨2, ![M, N]⟩ .f32) (acc : BitVec (FTy.bits .f32))
    (h : (⟨2, ![M, N]⟩ : Shape).Reduces [1] (⟨1, ![M]⟩ : Shape)) (hφ : FKind.Formats .f32)
    (hacc : acc = FKind.add.neutral .f32 hφ) (hc : (⟨1, ![M]⟩ : Shape).ShapeCasts ⟨2, ![M, 1]⟩) :
    sqrt (shapeCast ⟨2, ![M, 1]⟩
        (multiReduction (F := Ideal) .add [1] ⟨1, ![M]⟩ (mulf (subf z s) (subf z s)) acc h hφ hacc) hc)
      = fun j => dist z s (j 0) := by
  funext j
  obtain ⟨r, u, rfl⟩ : ∃ (r : Fin M) (u : Fin 1), j = ix2 r u := ⟨j 0, j 1, eq_ix2 j⟩
  show Ideal.sqrt (shapeCast ⟨2, ![M, 1]⟩
      (multiReduction (F := Ideal) .add [1] ⟨1, ![M]⟩ (mulf (subf z s) (subf z s)) acc h hφ hacc) hc (ix2 r u)) = dist z s r
  rw [Cert.LibKeepdims.shapeCast_a_a1_apply, Cert.LibRowReduce.multiReduction_add_row]
  rfl

theorem pay0 (v0 : Vec Ideal S2000x1433 .bf16) (v2 : Vec Ideal S1433x96 .bf16) (v4 : Vec Ideal S1x96 .f32) :
    (k0_pay1 (F := Ideal) v0 v2 v4 : S2000x96.Idx → EReal) = affine v0 v2 v4 := by
  unfold k0_pay1
  dsimp only
  rw [shapeCast_self, shapeCast_self, shapeCast_self]
  exact layer (φ₁ := .bf16) (φ₂ := .bf16) v0 v2 v4 broadcasts_S1x96_S2000x96

theorem pay1 (v0 : Vec Ideal S2000x64 .f32) (v4 : Vec Ideal S1x64 .f32) (v11 : Vec Ideal S64x32 .bf16) (v13 : Vec Ideal S1x32 .f32) :
    (k1_pay1 (F := Ideal) v0 v4 v11 v13 : S2000x32.Idx → EReal) = affine (hidden v0 v4) v11 v13 := by
  unfold k1_pay1
  dsimp only
  rw [shapeCast_self, shapeCast_self, shapeCast_self, shapeCast_self, hidden_vec]
  exact layer (φ₁ := .bf16) (φ₂ := .bf16) (hidden v0 v4) v11 v13 broadcasts_S1x32_S2000x32

theorem pay2 (v0 : Vec Ideal S2000x64 .f32) (v4 : Vec Ideal S1x64 .f32) (v11 : Vec Ideal S64x32 .bf16) (v13 : Vec Ideal S1x32 .f32)
    (v19 : Vec Ideal S32x7 .bf16) (v21 : Vec Ideal S1x7 .f32) :
    (k1_pay2 (F := Ideal) v0 v4 v11 v13 v19 v21 : S2000x7.Idx → EReal) = affine (affine (hidden v0 v4) v11 v13) v19 v21 := by
  unfold k1_pay2
  dsimp only
  rw [shapeCast_self, shapeCast_self]
  have e : (truncf .bf16 (k1_pay1 (F := Ideal) v0 v4 v11 v13) bitsLt_bf16_f32 : FVec Ideal S2000x32 .bf16)
      = affine (hidden v0 v4) v11 v13 := pay1 v0 v4 v11 v13
  rw [e]
  exact layer (φ₁ := .bf16) (φ₂ := .bf16) (affine (hidden v0 v4) v11 v13) v19 v21 broadcasts_S1x7_S2000x7

theorem pay3 (v0 : Vec Ideal S2000x64 .f32) (v2 : Vec Ideal S2000x32 .f32) (v4 : Vec Ideal S1x64 .f32) (v11 : Vec Ideal S64x32 .bf16)
    (v13 : Vec Ideal S1x32 .f32) :
    (k1_pay3 (F := Ideal) v0 v2 v4 v11 v13 : S2000x1.Idx → EReal) = fun j => dist (affine (hidden v0 v4) v11 v13) v2 (j 0) := by
  unfold k1_pay3
  dsimp only
  rw [shapeCast_self, pay1]
  exact dist_vec (affine (hidden v0 v4) v11 v13) v2 0x00000000#32 reduces_S2000x32_S2000 (.inl rfl) rfl shapeCasts_S2000_S2000x1

end Cert.Bridge.Pay
-- ==== Proof.KRegion1.lean ====
/-
  The second region's three output arrays after its 25 grid points, each as one function of the arrays the region finds.

  The region walks the 50000 rows of the graph-branch matrix g (window 0, 64 columns) and of the semantic embedding s
  (window 1, 32 columns) in 25 blocks of 2000 rows; the bias row b1, the weights W1 [64, 32] with their bias row b2 and
  the weights W2 [32, 7] with their bias row b3 are staged whole at every point. A point writes block t of three arrays:
  z = affine (hidden g b1) W1 b2 (32 columns), the scores affine z W2 b3 (7 columns), and the column of distances between
  row r of z and row r of s.

  Every entry of these three functions in row r looks only at row r of g and of s (and at whole small operands), so the
  value a point computes from its blocks at block row q is the whole-array function at row 2000 t + q: that is what a
  point writes back. The 25 blocks tile the rows (row r lies in the block of point r / 2000), so each array ends
  holding the whole-array function everywhere.
-/
import proofs.«137820_j7103875908246_1_alg».proof.Proof.KernelIdealFrameP
import proofs.«137820_j7103875908246_1_alg».proof.Proof.KPay

noncomputable section

namespace Cert.Bridge.K1
open Idealize.ShloMosaic Idealize.ShloMosaic.TcCoe Idealize.ShloMosaic.ValueIdx Idealize.SL.Sem
open Cert.Lib.Dense Cert.Lib.Rectify Cert.Bridge
open Cert.KernelIdeal Cert.KernelIdeal.Gen Cert.KernelIdeal.GenP

/-! ## Entries of row r look only at row r -/

/-- The rectified sum with a bias row at an entry depends on that entry of the matrix and on the bias of its column. -/
theorem hidden_congr {Mb M N : Nat} (gb : (⟨2, ![Mb, N]⟩ : Shape).Idx → EReal) (G : (⟨2, ![M, N]⟩ : Shape).Idx → EReal)
    (bb B : (⟨2, ![1, N]⟩ : Shape).Idx → EReal) (y : (⟨2, ![Mb, N]⟩ : Shape).Idx) (i : (⟨2, ![M, N]⟩ : Shape).Idx)
    (hg : gb y = G i) (hb : bb (ix2 0 (y 1)) = B (ix2 0 (i 1))) : hidden gb bb y = hidden G B i := by
  show relu1 (gb y + bb (ix2 0 (y 1))) = relu1 (G i + B (ix2 0 (i 1)))
  rw [hg, hb]

/-- The distance between two rows depends on those two rows only. -/
theorem dist_congr {Mb M N : Nat} (zb sb : (⟨2, ![Mb, N]⟩ : Shape).Idx → EReal) (Z S : (⟨2, ![M, N]⟩ : Shape).Idx → EReal)
    (q : Fin Mb) (r : Fin M) (hz : ∀ k : Fin N, zb (ix2 q k) = Z (ix2 r k)) (hs : ∀ k : Fin N, sb (ix2 q k) = S (ix2 r k)) :
    dist zb sb q = dist Z S r := by
  unfold dist
  exact congrArg Ideal.sqrt (Finset.sum_congr rfl fun k _ => by rw [hz k, hs k])

/-- Two rank-2 indices with equal coordinates are equal. -/
theorem ix2_ext {n0 n1 : Nat} (a a' : Fin n0) (b b' : Fin n1) (ha : a.val = a'.val) (hb : b.val = b'.val) :
    ix2 a b = ix2 a' b' := by
  rw [Fin.ext ha, Fin.ext hb]

/-! ## A block of rows against the whole array -/

section rows
variable (t : Nat)

/-- The block x holds rows 2000 t, 2000 t + 1, … of the array A. -/
def RowsOf {N : Nat} (x : (⟨2, ![2000, N]⟩ : Shape).Idx → EReal) (A : (⟨2, ![50000, N]⟩ : Shape).Idx → EReal) : Prop :=
  ∀ (q : Fin 2000) (r : Fin 50000) (k : Fin N), r.val = t * 2000 + q.val → x (ix2 q k) = A (ix2 r k)

/-- z on a block of rows is z of the whole array at those rows. -/
theorem z_rows (x : S2000x64.Idx → EReal) (A : S50000x64.Idx → EReal) (b1 : S1x64.Idx → EReal) (w1 : S64x32.Idx → EReal)
    (b2 : S1x32.Idx → EReal) (hx : RowsOf t x A) (y : S2000x32.Idx) (i : S50000x32.Idx)
    (h0 : (i 0).val = t * 2000 + (y 0).val) (h1 : (i 1).val = (y 1).val) :
    affine (hidden x b1) w1 b2 y = affine (hidden A b1) w1 b2 i :=
  affine_congr (hidden x b1) (hidden A b1) w1 w1 b2 b2 y i
    (fun j => hidden_congr x A b1 b1 (ix2 (y 0) j) (ix2 (i 0) j) (hx (y 0) (i 0) j h0) rfl)
    (fun j => congrArg w1 (ix2_ext (n0 := 64) (n1 := 32) j j (y 1) (i 1) rfl h1.symm))
    (congrArg b2 (ix2_ext (n0 := 1) (n1 := 32) 0 0 (y 1) (i 1) rfl h1.symm))

/-- The scores on a block of rows are the scores of the whole array at those rows. -/
theorem scores_rows (x : S2000x64.Idx → EReal) (A : S50000x64.Idx → EReal) (b1 : S1x64.Idx → EReal) (w1 : S64x32.Idx → EReal)
    (b2 : S1x32.Idx → EReal) (w2 : S32x7.Idx → EReal) (b3 : S1x7.Idx → EReal) (hx : RowsOf t x A)
    (y : S2000x7.Idx) (i : S50000x7.Idx) (h0 : (i 0).val = t * 2000 + (y 0).val) (h1 : (i 1).val = (y 1).val) :
    affine (affine (hidden x b1) w1 b2) w2 b3 y = affine (affine (hidden A b1) w1 b2) w2 b3 i :=
  affine_congr (affine (hidden x b1) w1 b2) (affine (hidden A b1) w1 b2) w2 w2 b3 b3 y i
    (fun j => z_rows t x A b1 w1 b2 hx (ix2 (y 0) j) (ix2 (i 0) j) h0 rfl)
    (fun j => congrArg w2 (ix2_ext (n0 := 32) (n1 := 7) j j (y 1) (i 1) rfl h1.symm))
    (congrArg b3 (ix2_ext (n0 := 1) (n1 := 7) 0 0 (y 1) (i 1) rfl h1.symm))

/-- The distances on a block of rows are the distances of the whole arrays at those rows. -/
theorem dist_rows (x : S2000x64.Idx → EReal) (A : S50000x64.Idx → EReal) (s : S2000x32.Idx → EReal) (S : S50000x32.Idx → EReal)
    (b1 : S1x64.Idx → EReal) (w1 : S64x32.Idx → EReal) (b2 : S1x32.Idx → EReal) (hx : RowsOf t x A) (hs : RowsOf t s S)
    (y : S2000x1.Idx) (i : S50000x1.Idx) (h0 : (i 0).val = t * 2000 + (y 0).val) :
    dist (affine (hidden x b1) w1 b2) s (y 0) = dist (affine (hidden A b1) w1 b2) S (i 0) :=
  dist_congr (affine (hidden x b1) w1 b2) s (affine (hidden A b1) w1 b2) S (y 0) (i 0)
    (fun k => z_rows t x A b1 w1 b2 hx (ix2 (y 0) k) (ix2 (i 0) k) h0 rfl) (fun k => hs (y 0) (i 0) k h0)

end rows

/-! ## The region's windows at a grid point -/

section region
variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the ten windows at point t: the row-blocked windows sit at block row t, block column 0; the
    small operands are one block. Decided over the 25 points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Window 0 at point t holds rows 2000 t … of g. -/
theorem rows_g (c : Dev nD) (t : Fin cfg1.N) :
    RowsOf t.val (iblk1 V c 0 t : Vec Ideal S2000x64 .f32) (V c main_v48 : S50000x64.Idx → EReal) := by
  obtain ⟨e0, e1, -⟩ := index_facts t
  intro q r k hr
  show V c main_v48 (((cfg1.win 0).blk t).view.emb (ix2 q k)) = V c main_v48 (ix2 r k)
  have h : ((cfg1.win 0).blk t).view.emb (ix2 q k) = ix2 r k := by
    funext a; apply Fin.ext
    match a with
    | ⟨0, _⟩ => show win1_0.index t (0 : Fin 2) * 2000 + 1 * q.val = r.val; rw [e0, hr]; omega
    | ⟨1, _⟩ => show win1_0.index t (1 : Fin 2) * 64 + 1 * k.val = k.val; rw [e1]; omega
  rw [h]

/-- Window 1 at point t holds rows 2000 t … of s. -/
theorem rows_s (c : Dev nD) (t : Fin cfg1.N) :
    RowsOf t.val (iblk1 V c 1 t : Vec Ideal S2000x32 .f32) (V c main_v8 : S50000x32.Idx → EReal) := by
  obtain ⟨-, -, e0, e1, -⟩ := index_facts t
  intro q r k hr
  show V c main_v8 (((cfg1.win 1).blk t).view.emb (ix2 q k)) = V c main_v8 (ix2 r k)
  have h : ((cfg1.win 1).blk t).view.emb (ix2 q k) = ix2 r k := by
    funext a; apply Fin.ext
    match a with
    | ⟨0, _⟩ => show win1_1.index t (0 : Fin 2) * 2000 + 1 * q.val = r.val; rw [e0, hr]; omega
    | ⟨1, _⟩ => show win1_1.index t (1 : Fin 2) * 32 + 1 * k.val = k.val; rw [e1]; omega
  rw [h]

/-- Window 2 at every point is the bias row b1, whole. -/
theorem whole_b1 (c : Dev nD) (t : Fin cfg1.N) :
    (iblk1 V c 2 t : Vec Ideal S1x64 .f32) = (V c main_v49 : S1x64.Idx → EReal) := by
  obtain ⟨-, -, -, -, e0, e1, -⟩ := index_facts t
  funext y
  show V c main_v49 (((cfg1.win 2).blk t).view.emb y) = V c main_v49 y
  have h : ((cfg1.win 2).blk t).view.emb y = y := by
    funext a; apply Fin.ext
    match a with
    | ⟨0, _⟩ => show win1_2.index t (0 : Fin 2) * 1 + 1 * (y 0).val = (y 0).val; rw [e0]; omega
    | ⟨1, _⟩ => show win1_2.index t (1 : Fin 2) * 64 + 1 * (y 1).val = (y 1).val; rw [e1]; omega
  rw [h]

/-- Window 3 at every point is the weight matrix W1, whole. -/
theorem whole_w1 (c : Dev nD) (t : Fin cfg1.N) :
    (iblk1 V c 3 t : Vec Ideal S64x32 .bf16) = (V c main_v52 : S64x32.Idx → EReal) := by
  obtain ⟨-, -, -, -, -, -, e0, e1, -⟩ := index_facts t
  funext y
  show V c main_v52 (((cfg1.win 3).blk t).view.emb y) = V c main_v52 y
  have h : ((cfg1.win 3).blk t).view.emb y = y := by
    funext a; apply Fin.ext
    match a with
    | ⟨0, _⟩ => show win1_3.index t (0 : Fin 2) * 64 + 1 * (y 0).val = (y 0).val; rw [e0]; omega
    | ⟨1, _⟩ => show win1_3.index t (1 : Fin 2) * 32 + 1 * (y 1).val = (y 1).val; rw [e1]; omega
  rw [h]

/-- Window 4 at every point is the bias row b2, whole. -/
theorem whole_b2 (c : Dev nD) (t : Fin cfg1.N) :
    (iblk1 V c 4 t : Vec Ideal S1x32 .f32) = (V c main_v50 : S1x32.Idx → EReal) := by
  obtain ⟨-, -, -, -, -, -, -, -, e0, e1, -⟩ := index_facts t
  funext y
  show V c main_v50 (((cfg1.win 4).blk t).view.emb y) = V c main_v50 y
  have h : ((cfg1.win 4).blk t).view.emb y = y := by
    funext a; apply Fin.ext
    match a with
    | ⟨0, _⟩ => show win1_4.index t (0 : Fin 2) * 1 + 1 * (y 0).val = (y 0).val; rw [e0]; omega
    | ⟨1, _⟩ => show win1_4.index t (1 : Fin 2) * 32 + 1 * (y 1).val = (y 1).val; rw [e1]; omega
  rw [h]

/-- Window 5 at every point is the weight matrix W2, whole. -/
theorem whole_w2 (c : Dev nD) (t : Fin cfg1.N) :
    (iblk1 V c 5 t : Vec Ideal S32x7 .bf16) = (V c main_v53 : S32x7.Idx → EReal) := by
  obtain ⟨-, -, -, -, -, -, -, -, -, -, e0, e1, -⟩ := index_facts t
  funext y
  show V c main_v53 (((cfg1.win 5).blk t).view.emb y) = V c main_v53 y
  have h : ((cfg1.win 5).blk t).view.emb y = y := by
    funext a; apply Fin.ext
    match a with
    | ⟨0, _⟩ => show win1_5.index t (0 : Fin 2) * 32 + 1 * (y 0).val = (y 0).val; rw [e0]; omega
    | ⟨1, _⟩ => show win1_5.index t (1 : Fin 2) * 7 + 1 * (y 1).val = (y 1).val; rw [e1]; omega
  rw [h]

/-- Window 6 at every point is the bias row b3, whole. -/
theorem whole_b3 (c : Dev nD) (t : Fin cfg1.N) :
    (iblk1 V c 6 t : Vec Ideal S1x7 .f32) = (V c main_v51 : S1x7.Idx → EReal) := by
  obtain ⟨-, -, -, -, -, -, -, -, -, -, -, -, e0, e1, -⟩ := index_facts t
  funext y
  show V c main_v51 (((cfg1.win 6).blk t).view.emb y) = V c main_v51 y
  have h : ((cfg1.win 6).blk t).view.emb y = y := by
    funext a; apply Fin.ext
    match a with
    | ⟨0, _⟩ => show win1_6.index t (0 : Fin 2) * 1 + 1 * (y 0).val = (y 0).val; rw [e0]; omega
    | ⟨1, _⟩ => show win1_6.index t (1 : Fin 2) * 7 + 1 * (y 1).val = (y 1).val; rw [e1]; omega
  rw [h]

/-! ## What a point leaves in its three output blocks, as functions of its input blocks -/

/-- The z block: the one store through the whole staging buffer leaves the payload of the loaded blocks. -/
theorem out_z (x0 : Vec Ideal S2000x64 .f32) (x1 : Vec Ideal S2000x32 .f32) (x2 : Vec Ideal S1x64 .f32) (x3 : Vec Ideal S64x32 .bf16)
    (x4 : Vec Ideal S1x32 .f32) (x5 : Vec Ideal S32x7 .bf16) (x6 : Vec Ideal S1x7 .f32) :
    (out1_9 (F := Ideal) x0 x1 x2 x3 x4 x5 x6 : S2000x32.Idx → EReal) = affine (hidden x0 x2) x3 x4 := by
  unfold out1_9
  rw [View.canon_unit_zero zero_offsets]
  simp only [View.ld_unit_zero (S := S2000x64) zero_offsets, View.ld_unit_zero (S := S1x64) zero_offsets,
    View.ld_unit_zero (S := S64x32) zero_offsets, View.ld_unit_zero (S := S1x32) zero_offsets]
  exact Pay.pay1 x0 x2 x3 x4

/-- The scores block. -/
theorem out_scores (x0 : Vec Ideal S2000x64 .f32) (x1 : Vec Ideal S2000x32 .f32) (x2 : Vec Ideal S1x64 .f32) (x3 : Vec Ideal S64x32 .bf16)
    (x4 : Vec Ideal S1x32 .f32) (x5 : Vec Ideal S32x7 .bf16) (x6 : Vec Ideal S1x7 .f32) :
    (out1_7 (F := Ideal) x0 x1 x2 x3 x4 x5 x6 : S2000x7.Idx → EReal) = affine (affine (hidden x0 x2) x3 x4) x5 x6 := by
  unfold out1_7
  rw [View.canon_unit_zero zero_offsets]
  simp only [View.ld_unit_zero (S := S2000x64) zero_offsets, View.ld_unit_zero (S := S1x64) zero_offsets,
    View.ld_unit_zero (S := S64x32) zero_offsets, View.ld_unit_zero (S := S1x32) zero_offsets,
    View.ld_unit_zero (S := S32x7) zero_offsets, View.ld_unit_zero (S := S1x7) zero_offsets]
  exact Pay.pay2 x0 x2 x3 x4 x5 x6

/-- The distance block. -/
theorem out_dist (x0 : Vec Ideal S2000x64 .f32) (x1 : Vec Ideal S2000x32 .f32) (x2 : Vec Ideal S1x64 .f32) (x3 : Vec Ideal S64x32 .bf16)
    (x4 : Vec Ideal S1x32 .f32) (x5 : Vec Ideal S32x7 .bf16) (x6 : Vec Ideal S1x7 .f32) :
    (out1_8 (F := Ideal) x0 x1 x2 x3 x4 x5 x6 : S2000x1.Idx → EReal) = fun j => dist (affine (hidden x0 x2) x3 x4) x1 (j 0) := by
  unfold out1_8
  rw [View.canon_unit_zero zero_offsets]
  simp only [View.ld_unit_zero (S := S2000x64) zero_offsets, View.ld_unit_zero (S := S2000x32) zero_offsets,
    View.ld_unit_zero (S := S1x64) zero_offsets,
    View.ld_unit_zero (S := S64x32) zero_offsets, View.ld_unit_zero (S := S1x32) zero_offsets]
  exact Pay.pay3 x0 x1 x2 x3 x4

end region

/-! ## What a point writes back, and the arrays after the last point -/

section region
variable (V : (c : Dev nD) → (b : Ref sig .tc) → Buf (Elt Ideal) ((c : Thread nD τ).loc b))

/-- The point whose block holds row r is r / 2000. -/
theorem point_of_row (r : Nat) (hr : r < 50000) : r / 2000 < cfg1.N := by
  have hN : cfg1.N = 25 := N_1
  rw [hN]; omega

/-! ### z (window 9, 32 columns) -/

/-- What point t writes back into the z array is block t of z of the whole arrays. -/
theorem flushed_z (c : Dev nD) (t : Fin cfg1.N) :
    (dat1 V c).flushed 9 t = ((cfg1.win 9).blk t).view.read (Elt Ideal)
      (affine (hidden (V c main_v48 : S50000x64.Idx → EReal) (V c main_v49 : S1x64.Idx → EReal))
          (V c main_v52 : S64x32.Idx → EReal) (V c main_v50 : S1x32.Idx → EReal)) := by
  show (cfg1.win 9).cut (grid1.coords t) ((dat1 V c).after 9 t) = _
  rw [after1_9, out_z (iblk1 V c 0 t) (iblk1 V c 1 t) (iblk1 V c 2 t) (iblk1 V c 3 t) (iblk1 V c 4 t) (iblk1 V c 5 t) (iblk1 V c 6 t),
    whole_b1 V c t, whole_w1 V c t, whole_b2 V c t]
  obtain ⟨-, -, -, -, -, -, -, -, -, -, -, -, -, -, -, -, -, -, e0, e1⟩ := index_facts t
  funext y
  have h0 : ((((cfg1.win 9).blk t).view.emb y : S50000x32.Idx) 0).val = t.val * 2000 + (y 0).val := by
    show win1_9.index t (0 : Fin 2) * 2000 + 1 * (y 0).val = t.val * 2000 + (y 0).val; rw [e0]; omega
  have h1 : ((((cfg1.win 9).blk t).view.emb y : S50000x32.Idx) 1).val = (y 1).val := by
    show win1_9.index t (1 : Fin 2) * 32 + 1 * (y 1).val = (y 1).val; rw [e1]; omega
  exact z_rows t.val (iblk1 V c 0 t) (V c main_v48) (V c main_v49) (V c main_v52) (V c main_v50) (rows_g V c t) y
    (((cfg1.win 9).blk t).view.emb y) h0 h1

/-- An index of the z array is in point t's block iff each coordinate is in the block's range on its axis. -/
theorem mem_blk_z (t : Fin cfg1.N) (i : S50000x32.Idx) :
    i ∈ ((cfg1.win 9).blk t).view.set ↔ ∀ a : Fin 2, win1_9.index t a * S2000x32.size a ≤ (i a).val ∧ (i a).val < win1_9.index t a * S2000x32.size a + S2000x32.size a := by
  show i ∈ ((View.whole main_v54_2).slice (win1_9.rect t)).set ↔ _
  rw [View.set_slice_whole, Rect.mem_set_unit]
  exact Iff.rfl

/-- Every index of the z array is in the block of the point its row names. -/
theorem cover_z (i : S50000x32.Idx) : ∃ t : Fin cfg1.N, (cfg1.win 9).flush t = true ∧ i ∈ ((cfg1.win 9).blk t).view.set := by
  have hi0 : (i 0).val < 50000 := (i 0).isLt
  have hi1 : (i 1).val < 32 := (i 1).isLt
  refine ⟨⟨(i 0).val / 2000, point_of_row _ hi0⟩, flush1_9 _, ?_⟩
  obtain ⟨-, -, -, -, -, -, -, -, -, -, -, -, -, -, -, -, -, -, e0, e1⟩ := index_facts ⟨(i 0).val / 2000, point_of_row _ hi0⟩
  rw [mem_blk_z]
  intro a
  match a with
  | ⟨0, _⟩ =>
    show win1_9.index ⟨(i 0).val / 2000, point_of_row _ hi0⟩ (0 : Fin 2) * 2000 ≤ (i 0).val ∧ (i 0).val < win1_9.index ⟨(i 0).val / 2000, point_of_row _ hi0⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, point_of_row _ hi0⟩ (1 : Fin 2) * 32 ≤ (i 1).val ∧ (i 1).val < win1_9.index ⟨(i 0).val / 2000, point_of_row _ hi0⟩ (1 : Fin 2) * 32 + 32
    rw [e1]; omega

/-! ### The scores (window 7, 7 columns) -/

/-- What point t writes back into the score array is block t of the scores of the whole arrays. -/
theorem flushed_scores (c : Dev nD) (t : Fin cfg1.N) :
    (dat1 V c).flushed 7 t = ((cfg1.win 7).blk t).view.read (Elt Ideal)
      (affine (affine (hidden (V c main_v48 : S50000x64.Idx → EReal) (V c main_v49 : S1x64.Idx → EReal))
          (V c main_v52 : S64x32.Idx → EReal) (V c main_v50 : S1x32.Idx → EReal))
          (V c main_v53 : S32x7.Idx → EReal) (V c main_v51 : S1x7.Idx → EReal)) := by
  show (cfg1.win 7).cut (grid1.coords t) ((dat1 V c).after 7 t) = _
  rw [after1_7, out_scores (iblk1 V c 0 t) (iblk1 V c 1 t) (iblk1 V c 2 t) (iblk1 V c 3 t) (iblk1 V c 4 t) (iblk1 V c 5 t) (iblk1 V c 6 t),
    whole_b1 V c t, whole_w1 V c t, whole_b2 V c t, whole_w2 V c t, whole_b3 V c t]
  obtain ⟨-, -, -, -, -, -, -, -, -, -, -, -, -, -, e0, e1, -⟩ := index_facts t
  funext y
  have h0 : ((((cfg1.win 7).blk t).view.emb y : S50000x7.Idx) 0).val = t.val * 2000 + (y 0).val := by
    show win1_7.index t (0 : Fin 2) * 2000 + 1 * (y 0).val = t.val * 2000 + (y 0).val; rw [e0]; omega
  have h1 : ((((cfg1.win 7).blk t).view.emb y : S50000x7.Idx) 1).val = (y 1).val := by
    show win1_7.index t (1 : Fin 2) * 7 + 1 * (y 1).val = (y 1).val; rw [e1]; omega
  exact scores_rows t.val (iblk1 V c 0 t) (V c main_v48) (V c main_v49) (V c main_v52) (V c main_v50) (V c main_v53) (V c main_v51)
    (rows_g V c t) y (((cfg1.win 7).blk t).view.emb y) h0 h1

/-- An index of the score array is in point t's block iff each coordinate is in the block's range on its axis. -/
theorem mem_blk_scores (t : Fin cfg1.N) (i : S50000x7.Idx) :
    i ∈ ((cfg1.win 7).blk t).view.set ↔ ∀ a : Fin 2, win1_7.index t a * S2000x7.size a ≤ (i a).val ∧ (i a).val < win1_7.index t a * S2000x7.size a + S2000x7.size a := by
  show i ∈ ((View.whole main_v54_0).slice (win1_7.rect t)).set ↔ _
  rw [View.set_slice_whole, Rect.mem_set_unit]
  exact Iff.rfl

/-- Every index of the score array is in the block of the point its row names. -/
theorem cover_scores (i : S50000x7.Idx) : ∃ t : Fin cfg1.N, (cfg1.win 7).flush t = true ∧ i ∈ ((cfg1.win 7).blk t).view.set := by
  have hi0 : (i 0).val < 50000 := (i 0).isLt
  have hi1 : (i 1).val < 7 := (i 1).isLt
  refine ⟨⟨(i 0).val / 2000, point_of_row _ hi0⟩, flush1_7 _, ?_⟩
  obtain ⟨-, -, -, -, -, -, -, -, -, -, -, -, -, -, e0, e1, -⟩ := index_facts ⟨(i 0).val / 2000, point_of_row _ hi0⟩
  rw [mem_blk_scores]
  intro a
  match a with
  | ⟨0, _⟩ =>
    show win1_7.index ⟨(i 0).val / 2000, point_of_row _ hi0⟩ (0 : Fin 2) * 2000 ≤ (i 0).val ∧ (i 0).val < win1_7.index ⟨(i 0).val / 2000, point_of_row _ hi0⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, point_of_row _ hi0⟩ (1 : Fin 2) * 7 ≤ (i 1).val ∧ (i 1).val < win1_7.index ⟨(i 0).val / 2000, point_of_row _ hi0⟩ (1 : Fin 2) * 7 + 7
    rw [e1]; omega

/-! ### The distances (window 8, one column) -/

/-- What point t writes back into the distance array is block t of the distances of the whole arrays. -/
theorem flushed_dist (c : Dev nD) (t : Fin cfg1.N) :
    (dat1 V c).flushed 8 t = ((cfg1.win 8).blk t).view.read (Elt Ideal)
      (fun j : S50000x1.Idx => dist (affine (hidden (V c main_v48 : S50000x64.Idx → EReal) (V c main_v49 : S1x64.Idx → EReal))
          (V c main_v52 : S64x32.Idx → EReal) (V c main_v50 : S1x32.Idx → EReal)) (V c main_v8 : S50000x32.Idx → EReal) (j 0)) := by
  show (cfg1.win 8).cut (grid1.coords t) ((dat1 V c).after 8 t) = _
  rw [after1_8, out_dist (iblk1 V c 0 t) (iblk1 V c 1 t) (iblk1 V c 2 t) (iblk1 V c 3 t) (iblk1 V c 4 t) (iblk1 V c 5 t) (iblk1 V c 6 t),
    whole_b1 V c t, whole_w1 V c t, whole_b2 V c t]
  obtain ⟨-, -, -, -, -, -, -, -, -, -, -, -, -, -, -, -, e0, e1, -⟩ := index_facts t
  funext y
  have h0 : ((((cfg1.win 8).blk t).view.emb y : S50000x1.Idx) 0).val = t.val * 2000 + (y 0).val := by
    show win1_8.index t (0 : Fin 2) * 2000 + 1 * (y 0).val = t.val * 2000 + (y 0).val; rw [e0]; omega
  exact dist_rows t.val (iblk1 V c 0 t) (V c main_v48) (iblk1 V c 1 t) (V c main_v8) (V c main_v49) (V c main_v52) (V c main_v50)
    (rows_g V c t) (rows_s V c t) y (((cfg1.win 8).blk t).view.emb y) h0

/-- An index of the distance array is in point t's block iff each coordinate is in the block's range on its axis. -/
theorem mem_blk_dist (t : Fin cfg1.N) (i : S50000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v54_1).slice (win1_8.rect t)).set ↔ _
  rw [View.set_slice_whole, Rect.mem_set_unit]
  exact Iff.rfl

/-- Every index of the distance array is in the block of the point its row names. -/
theorem cover_dist (i : S50000x1.Idx) : ∃ t : Fin cfg1.N, (cfg1.win 8).flush t = true ∧ i ∈ ((cfg1.win 8).blk t).view.set := by
  have hi0 : (i 0).val < 50000 := (i 0).isLt
  have hi1 : (i 1).val < 1 := (i 1).isLt
  refine ⟨⟨(i 0).val / 2000, point_of_row _ hi0⟩, flush1_8 _, ?_⟩
  obtain ⟨-, -, -, -, -, -, -, -, -, -, -, -, -, -, -, -, e0, e1, -⟩ := index_facts ⟨(i 0).val / 2000, point_of_row _ hi0⟩
  rw [mem_blk_dist]
  intro a
  match a with
  | ⟨0, _⟩ =>
    show win1_8.index ⟨(i 0).val / 2000, point_of_row _ hi0⟩ (0 : Fin 2) * 2000 ≤ (i 0).val ∧ (i 0).val < win1_8.index ⟨(i 0).val / 2000, point_of_row _ hi0⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, point_of_row _ hi0⟩ (1 : Fin 2) * 1 ≤ (i 1).val ∧ (i 1).val < win1_8.index ⟨(i 0).val / 2000, point_of_row _ hi0⟩ (1 : Fin 2) * 1 + 1
    rw [e1]; omega

end region

/-! ## The three arrays after the region -/

/-- The z array ends holding z of the arrays the region finds. -/
theorem arr9 (V : (c : Dev nD) → (b : Ref sig .tc) → Buf (Elt Ideal) ((c : Thread nD τ).loc b)) (c : Dev nD) :
    ((dat1 (F := Ideal) V c).arrAt 9 cfg1.N : S50000x32.Idx → EReal)
      = affine (hidden (V c main_v48 : S50000x64.Idx → EReal) (V c main_v49 : S1x64.Idx → EReal))
          (V c main_v52 : S64x32.Idx → EReal) (V c main_v50 : S1x32.Idx → EReal) :=
  (dat1 V c).arrAt_eq_of_cover 9 _ (fun t _ => flushed_z V c t) cover_z

/-- The score array ends holding the scores of the arrays the region finds. -/
theorem arr7 (V : (c : Dev nD) → (b : Ref sig .tc) → Buf (Elt Ideal) ((c : Thread nD τ).loc b)) (c : Dev nD) :
    ((dat1 (F := Ideal) V c).arrAt 7 cfg1.N : S50000x7.Idx → EReal)
      = affine (affine (hidden (V c main_v48 : S50000x64.Idx → EReal) (V c main_v49 : S1x64.Idx → EReal))
          (V c main_v52 : S64x32.Idx → EReal) (V c main_v50 : S1x32.Idx → EReal))
          (V c main_v53 : S32x7.Idx → EReal) (V c main_v51 : S1x7.Idx → EReal) :=
  (dat1 V c).arrAt_eq_of_cover 7 _ (fun t _ => flushed_scores V c t) cover_scores

/-- The distance array ends holding, in row r, the distance between row r of z and row r of s. -/
theorem arr8 (V : (c : Dev nD) → (b : Ref sig .tc) → Buf (Elt Ideal) ((c : Thread nD τ).loc b)) (c : Dev nD) :
    ((dat1 (F := Ideal) V c).arrAt 8 cfg1.N : S50000x1.Idx → EReal)
      = fun j => dist (affine (hidden (V c main_v48 : S50000x64.Idx → EReal) (V c main_v49 : S1x64.Idx → EReal))
          (V c main_v52 : S64x32.Idx → EReal) (V c main_v50 : S1x32.Idx → EReal)) (V c main_v8 : S50000x32.Idx → EReal) (j 0) :=
  (dat1 V c).arrAt_eq_of_cover 8 _ (fun t _ => flushed_dist V c t) cover_dist

end Cert.Bridge.K1
-- ==== Proof.KRegion0.lean ====
/-
  THE FIRST KERNEL REGION'S OUTPUT, AS ONE ARRAY. The region walks 25 grid points. At point t it reads rows
  2000·t … 2000·t + 1999 of the [50000, 1433] input (all 1433 columns), the whole [1433, 96] weight matrix and the whole
  [1, 96] bias row, and writes the affine layer of that block of rows — each row against each weight column, plus the bias
  entry of that column — into rows 2000·t … 2000·t + 1999 of the [50000, 96] output. An entry of an affine layer depends only
  on its own row of the input, its own column of the weights and its own bias entry, so the block of rows computed at point t
  is the same as rows 2000·t … of the affine layer of the WHOLE input; the 25 blocks of rows tile the 50000 rows (row r lies in
  block r / 2000), hence after the last point the output array is the affine layer of the three arrays the region found.
-/
import proofs.«137820_j7103875908246_1_alg».proof.Proof.KernelIdealFrameP
import proofs.«137820_j7103875908246_1_alg».proof.Proof.KPay

noncomputable section

namespace Cert.Bridge.K0
open Idealize.ShloMosaic Idealize.ShloMosaic.TcCoe Idealize.ShloMosaic.ValueIdx Idealize.SL.Sem
open Cert.Lib.Dense Cert.Lib.Rectify Cert.Bridge
open Cert.KernelIdeal Cert.KernelIdeal.Gen Cert.KernelIdeal.GenP

/-- The zero offsets of a whole-block access, spelt as a constant function. -/
theorem zero_off : (![0, 0] : Fin 2 → Nat) = fun _ => 0 := funext fun a => by fin_cases a <;> rfl

/-- What the body leaves in the output's buffer, from ANY three loaded blocks: it loads each block whole, stores one
    whole-block payload, and that payload is the affine layer of the blocks. -/
theorem out_affine (x0 : Vec Ideal S2000x1433 .bf16) (x1 : Vec Ideal S1433x96 .bf16) (x2 : Vec Ideal S1x96 .f32) :
    (out0_3 (F := Ideal) x0 x1 x2 : S2000x96.Idx → EReal) = affine x0 x1 x2 := by
  unfold out0_3
  rw [View.canon_unit_zero zero_off]
  simp only [View.ld_unit_zero (S := S2000x1433) zero_off, View.ld_unit_zero (S := S1433x96) zero_off,
    View.ld_unit_zero (S := S1x96) zero_off]
  exact Pay.pay0 x0 x1 x2

/-- The block index maps over the grid: the input's block of rows moves with the output's (block t at point t, the one block
    of columns), and the weights and the bias row stay at their one whole block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the affine layer of the whole arrays: the body's affine layer of the three blocks
    reads, entry by entry, row (2000·t + the row inside the block) of the input, the same weight column and the same bias
    entry as the whole-array layer does at the entry's place in the output. -/
theorem flushed_eq (V : (c : Dev nD) → (b : Ref sig .tc) → Buf (Elt Ideal) ((c : Thread nD τ).loc b)) (c : Dev nD)
    (t : Fin cfg0.N) :
    (dat0 (F := Ideal) V c).flushed 3 t = ((cfg0.win 3).blk t).view.read (Elt Ideal)
      (affine (V c main_v0 : S50000x1433.Idx → EReal) (V c main_v2 : S1433x96.Idx → EReal) (V c main_v5 : S1x96.Idx → EReal)) := by
  show (cfg0.win 3).cut (grid0.coords t) ((dat0 V c).after 3 t) = _
  rw [after0_3]
  refine (congrArg ((cfg0.win 3).cut (grid0.coords t)) (out_affine (iblk0 V c 0 t) (iblk0 V c 1 t) (iblk0 V c 2 t))).trans ?_
  obtain ⟨e00, e01, e10, e11, e20, e21, e30, e31⟩ := block_indices t
  funext y
  show affine (iblk0 V c 0 t) (iblk0 V c 1 t) (iblk0 V c 2 t) y
    = affine (V c main_v0 : S50000x1433.Idx → EReal) (V c main_v2 : S1433x96.Idx → EReal) (V c main_v5 : S1x96.Idx → EReal)
        (((cfg0.win 3).blk t).view.emb y)
  have hy0 : (y 0).val < 2000 := (y 0).isLt
  have hy1 : (y 1).val < 96 := (y 1).isLt
  refine affine_congr (Mb := 2000) (M := 50000) (K := 1433) (N := 96) _ _ _ _ _ _ y _ (fun k => ?_) (fun k => ?_) ?_
  · show V c main_v0 (((cfg0.win 0).blk t).view.emb (ix2 (y 0) k)) = V c main_v0 (ix2 ((((cfg0.win 3).blk t).view.emb y) 0) k)
    refine congrArg (V c main_v0) (funext fun a => Fin.ext ?_)
    match a with
    | ⟨0, _⟩ =>
      show win0_0.index t (0 : Fin 2) * 2000 + 1 * (y 0).val = win0_3.index t (0 : Fin 2) * 2000 + 1 * (y 0).val
      omega
    | ⟨1, _⟩ =>
      show win0_0.index t (1 : Fin 2) * 1433 + 1 * k.val = k.val
      omega
  · show V c main_v2 (((cfg0.win 1).blk t).view.emb (ix2 k (y 1))) = V c main_v2 (ix2 k ((((cfg0.win 3).blk t).view.emb y) 1))
    refine congrArg (V c main_v2) (funext fun a => Fin.ext ?_)
    match a with
    | ⟨0, _⟩ =>
      show win0_1.index t (0 : Fin 2) * 1433 + 1 * k.val = k.val
      omega
    | ⟨1, _⟩ =>
      show win0_1.index t (1 : Fin 2) * 96 + 1 * (y 1).val = win0_3.index t (1 : Fin 2) * 96 + 1 * (y 1).val
      omega
  · show V c main_v5 (((cfg0.win 2).blk t).view.emb (ix2 0 (y 1))) = V c main_v5 (ix2 0 ((((cfg0.win 3).blk t).view.emb y) 1))
    refine congrArg (V c main_v5) (funext fun a => Fin.ext ?_)
    match a with
    | ⟨0, _⟩ =>
      show win0_2.index t (0 : Fin 2) * 1 + 1 * 0 = 0
      omega
    | ⟨1, _⟩ =>
      show win0_2.index t (1 : Fin 2) * 96 + 1 * (y 1).val = win0_3.index t (1 : Fin 2) * 96 + 1 * (y 1).val
      omega

/-- A place of the output array is in point t's block iff each coordinate is in the block's range on its axis. -/
theorem mem_block (t : Fin cfg0.N) (i : S50000x96.Idx) :
    i ∈ ((cfg0.win 3).blk t).view.set
      ↔ ∀ a : Fin 2, win0_3.index t a * S2000x96.size a ≤ (i a).val ∧ (i a).val < win0_3.index t a * S2000x96.size a + S2000x96.size a := by
  show i ∈ ((View.whole main_v6).slice (win0_3.rect t)).set ↔ _
  rw [View.set_slice_whole, Rect.mem_set_unit]
  exact Iff.rfl

/-- The 25 blocks of 2000 rows tile the 50000 rows: row r is written back at point r / 2000. -/
theorem rows_covered (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 25 := N_0
  refine ⟨⟨(i 0).val / 2000, by omega⟩, flush0_3 _, ?_⟩
  rw [mem_block]
  obtain ⟨-, -, -, -, -, -, e30, e31⟩ := block_indices ⟨(i 0).val / 2000, by omega⟩
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, _⟩ (1 : Fin 2) * 96 ≤ (i 1).val
      ∧ (i 1).val < win0_3.index ⟨(i 0).val / 2000, _⟩ (1 : Fin 2) * 96 + 96
    rw [e31]
    omega

/-- THE OUTPUT ARRAY AFTER THE LAST POINT is the affine layer of the input, the weights and the bias row as the region found
    them: every point writes back its own block of rows of that one array, and the blocks of rows cover all 50000 rows. -/
theorem arr3 (V : (c : Dev nD) → (b : Ref sig .tc) → Buf (Elt Ideal) ((c : Thread nD τ).loc b)) (c : Dev nD) :
    ((dat0 (F := Ideal) V c).arrAt 3 cfg0.N : S50000x96.Idx → EReal)
      = affine (V c main_v0 : S50000x1433.Idx → EReal) (V c main_v2 : S1433x96.Idx → EReal) (V c main_v5 : S1x96.Idx → EReal) :=
  (dat0 (F := Ideal) V c).arrAt_eq_of_cover 3 _ (fun t _ => flushed_eq V c t) rows_covered

end Cert.Bridge.K0
-- ==== Proof.KPre.lean ====
/-
  The wide layer and its two halves, over the extended reals.

  The node features x [50000, 1433] meet both weight matrices at once: W_gcn [1433, 64] and W_ps [1433, 32] stand side by side as
  one [1433, 96] matrix (columns 0..63 and 64..95), and the bias row [1, 96] is 64 zero words followed by the vector b_ps. Rounding
  x and the weights to a shorter format is the identity over the extended reals. One affine layer over these gives a [50000, 96]
  matrix, of which the left 64 columns and the right 32 columns are then cut out.

  * Entry (r, q) of the left part looks only at column q of W_gcn and at a zero of the bias row, so the left part is the bare
    product x · W_gcn: adding zero changes nothing, at the infinities too.
  * Entry (r, q) of the right part looks at column 64 + q of the wide matrix, which is column q of W_ps, and at entry 64 + q of the
    bias row, which is b_ps q: the right part is the affine layer x · W_ps + b_ps.
-/
import proofs.«137820_j7103875908246_1_alg».proof.Proof.KernelIdealFrameP
import proofs.«137820_j7103875908246_1_alg».proof.Proof.KRegion0

noncomputable section

namespace Cert.Bridge.KPre
open Idealize.ShloMosaic Idealize.ShloMosaic.TcCoe Idealize.ShloMosaic.ValueIdx Idealize.SL.Sem
open Cert.Lib.Dense Cert.Lib.Rectify Cert.Bridge
open Cert.KernelIdeal Cert.KernelIdeal.Gen Cert.KernelIdeal.GenP
variable (m : (ℓ : Loc nD τ sig) → Buf (Elt Ideal) ℓ) (ρ : Dev nD → PrngReg)

/-! ### Layout arithmetic at an entry -/

/-- The left 64 columns cut out of a [50000, 96] matrix: entry (r, q) is the matrix's entry (r, q). -/
theorem cut_left (X : S50000x96.Idx → EReal) (r : Fin 50000) (q : Fin 64) :
    extractStridedSlice S50000x64 ![0, 0] X slices_S50000x96_S50000x64_0_0 (ix2 r q)
      = X (ix2 r (⟨q.val, by omega⟩ : Fin 96)) := by
  refine extractStridedSlice_apply _ X _ (ix2 r q) (ix2 r (⟨q.val, by omega⟩ : Fin 96)) fun a => ?_
  match a with
  | ⟨0, _⟩ => show r.val = 0 + r.val; omega
  | ⟨1, _⟩ => show q.val = 0 + q.val; omega

/-- The right 32 columns cut out of a [50000, 96] matrix: entry (r, q) is the matrix's entry (r, 64 + q). -/
theorem cut_right (X : S50000x96.Idx → EReal) (r : Fin 50000) (q : Fin 32) :
    extractStridedSlice S50000x32 ![0, 64] X slices_S50000x96_S50000x32_0_64 (ix2 r q)
      = X (ix2 r (⟨64 + q.val, by omega⟩ : Fin 96)) := by
  refine extractStridedSlice_apply _ X _ (ix2 r q) (ix2 r (⟨64 + q.val, by omega⟩ : Fin 96)) fun a => ?_
  match a with
  | ⟨0, _⟩ => show r.val = 0 + r.val; omega
  | ⟨1, _⟩ => show 64 + q.val = 64 + q.val; rfl

/-- Two weight matrices side by side, at a column of the left one. -/
theorem side_left (A : S1433x64.Idx → EReal) (B : S1433x32.Idx → EReal) (k : Fin 1433) (q : Fin 64) :
    concatenate S1433x96 1 [⟨S1433x64, A⟩, ⟨S1433x32, B⟩] concatenates_S1433x64_S1433x32_S1433x96_d1
        (ix2 k (⟨q.val, by omega⟩ : Fin 96)) = A (ix2 k q) := by
  refine concatenate_pair_apply_left (1 : Fin 2) A B _ (ix2 k (⟨q.val, by omega⟩ : Fin 96)) rfl (ix2 k q) fun b => ?_
  match b with
  | ⟨0, _⟩ => rfl
  | ⟨1, _⟩ => rfl

/-- Two weight matrices side by side, at a column of the right one. -/
theorem side_right (A : S1433x64.Idx → EReal) (B : S1433x32.Idx → EReal) (k : Fin 1433) (q : Fin 32) :
    concatenate S1433x96 1 [⟨S1433x64, A⟩, ⟨S1433x32, B⟩] concatenates_S1433x64_S1433x32_S1433x96_d1
        (ix2 k (⟨64 + q.val, by omega⟩ : Fin 96)) = B (ix2 k q) := by
  refine concatenate_pair_apply_right (1 : Fin 2) A B _ (ix2 k (⟨64 + q.val, by omega⟩ : Fin 96)) rfl rfl (ix2 k q) (fun b hb => ?_) ?_
  · match b with
    | ⟨0, _⟩ => rfl
    | ⟨1, _⟩ => exact absurd rfl hb
  · show q.val + 64 = 64 + q.val; omega

/-- The bias row of the wide layer: 64 zero words followed by the vector b, made a row. Its entries. -/
theorem bias_left (b : S32.Idx → EReal) (q : Fin 64) :
    shapeCast S1x96 (concatenate S96 0 [⟨S64, broadcastInDim S64 ![] bcast_S_S64 (constant (F := Ideal) S_ .f32 0x00000000#32)⟩, ⟨S32, b⟩]
        concatenates_S64_S32_S96_d0) shapeCasts_S96_S1x96 (ix2 0 (⟨q.val, by omega⟩ : Fin 96)) = 0 := by
  rw [shapeCast_row]
  show concatenate S96 0 [⟨S64, broadcastInDim S64 ![] bcast_S_S64 (constant (F := Ideal) S_ .f32 0x00000000#32)⟩, ⟨S32, b⟩]
        concatenates_S64_S32_S96_d0 (ix1 (⟨q.val, by omega⟩ : Fin 96)) = 0
  refine (concatenate_pair_apply_left (t := S96) (s₁ := S64) (s₂ := S32) (0 : Fin 1) _ b _ (ix1 (⟨q.val, by omega⟩ : Fin 96)) rfl (ix1 q) fun a => ?_).trans ?_
  · match a with
    | ⟨0, _⟩ => rfl
  · rw [splat0_apply]
    exact Ideal.ofBits_zero_f32

/-- Past the 64 zeros the bias row holds the vector b. -/
theorem bias_right (b : S32.Idx → EReal) (q : Fin 32) :
    shapeCast S1x96 (concatenate S96 0 [⟨S64, broadcastInDim S64 ![] bcast_S_S64 (constant (F := Ideal) S_ .f32 0x00000000#32)⟩, ⟨S32, b⟩]
        concatenates_S64_S32_S96_d0) shapeCasts_S96_S1x96 (ix2 0 (⟨64 + q.val, by omega⟩ : Fin 96)) = biasRow b (ix2 0 q) := by
  rw [shapeCast_row]
  show concatenate S96 0 [⟨S64, broadcastInDim S64 ![] bcast_S_S64 (constant (F := Ideal) S_ .f32 0x00000000#32)⟩, ⟨S32, b⟩]
        concatenates_S64_S32_S96_d0 (ix1 (⟨64 + q.val, by omega⟩ : Fin 96)) = b (ix1 q)
  refine concatenate_pair_apply_right (t := S96) (s₁ := S64) (s₂ := S32) (0 : Fin 1) _ b _ (ix1 (⟨64 + q.val, by omega⟩ : Fin 96)) rfl rfl (ix1 q) (fun a ha => ?_) ?_
  · match a with
    | ⟨0, _⟩ => exact absurd rfl ha
  · show q.val + 64 = 64 + q.val; omega

/-- An affine layer's entry looks at one column of the weights and one entry of the bias row: two layers over the same X whose
    weights agree on a pair of columns, and whose bias rows agree there, have the same entries in those columns. -/
theorem affine_cols {M K N N' : Nat} (X : (⟨2, ![M, K]⟩ : Shape).Idx → EReal) (W : (⟨2, ![K, N]⟩ : Shape).Idx → EReal)
    (W' : (⟨2, ![K, N']⟩ : Shape).Idx → EReal) (B : (⟨2, ![1, N]⟩ : Shape).Idx → EReal) (B' : (⟨2, ![1, N']⟩ : Shape).Idx → EReal)
    (r : Fin M) (q : Fin N) (q' : Fin N') (hw : ∀ k : Fin K, W (ix2 k q) = W' (ix2 k q')) (hb : B (ix2 0 q) = B' (ix2 0 q')) :
    affine X W B (ix2 r q) = affine X W' B' (ix2 r q') := by
  show (∑ k : Fin K, X (ix2 r k) * W (ix2 k q)) + B (ix2 0 q) = (∑ k : Fin K, X (ix2 r k) * W' (ix2 k q')) + B' (ix2 0 q')
  rw [hb]
  exact congrArg (· + _) (Finset.sum_congr rfl fun k _ => by rw [hw k])

/-! ### What the wide layer is given: x as it is, the two weight matrices side by side, the zeros followed by the bias -/

/-- x enters unchanged. -/
theorem read_v0 (c : Dev nD) :
    (V1 (F := Ideal) m ρ c main_v0 : S50000x1433.Idx → EReal) = (m ((c : Thread nD τ).loc main_arg0) : S50000x1433.Idx → EReal) := by
  show StableHlo.after hostOps0 (W0 m ρ c) (Proc.devRef .tc main_v0) = _
  after_results
  rfl

/-- The weights enter side by side. -/
theorem read_v2 (c : Dev nD) :
    (V1 (F := Ideal) m ρ c main_v2 : S1433x96.Idx → EReal)
      = concatenate S1433x96 1 [⟨S1433x64, (m ((c : Thread nD τ).loc main_arg2) : S1433x64.Idx → EReal)⟩, ⟨S1433x32, (m ((c : Thread nD τ).loc main_arg6) : S1433x32.Idx → EReal)⟩] concatenates_S1433x64_S1433x32_S1433x96_d1 := by
  show StableHlo.after hostOps0 (W0 m ρ c) (Proc.devRef .tc main_v2) = _
  after_results
  rfl

/-- The bias enters as the row made of 64 zero words and then b_ps. -/
theorem read_v5 (c : Dev nD) :
    (V1 (F := Ideal) m ρ c main_v5 : S1x96.Idx → EReal)
      = shapeCast S1x96 (concatenate S96 0 [⟨S64, broadcastInDim S64 ![] bcast_S_S64 (constant (F := Ideal) S_ .f32 0x00000000#32)⟩, ⟨S32, (m ((c : Thread nD τ).loc main_arg7) : S32.Idx → EReal)⟩] concatenates_S64_S32_S96_d0) shapeCasts_S96_S1x96 := by
  show StableHlo.after hostOps0 (W0 m ρ c) (Proc.devRef .tc main_v5) = _
  after_results
  rfl

/-! ### The wide layer's value, and its two parts as slices of it -/

/-- The wide layer's result is the fourth array of its region. -/
theorem arr3_ref : Pipeline.arrRef spec0 (3 : Fin cfg0.W) = main_v6 := rfl

/-- The wide layer's value: the affine layer over what it was given. -/
theorem read_v6 (c : Dev nD) :
    (W2 (F := Ideal) m ρ c (Proc.devRef .tc main_v6) : S50000x96.Idx → EReal)
      = affine (V1 (F := Ideal) m ρ c main_v0 : S50000x1433.Idx → EReal) (V1 (F := Ideal) m ρ c main_v2 : S1433x96.Idx → EReal)
          (V1 (F := Ideal) m ρ c main_v5 : S1x96.Idx → EReal) :=
  (W2_arr m ρ c 3).trans (Cert.Bridge.K0.arr3 (V1 m ρ) c)

/-- The left part is the slice at columns 0..63. -/
theorem read_v7 (c : Dev nD) :
    (V3 (F := Ideal) m ρ c main_v7 : S50000x64.Idx → EReal)
      = extractStridedSlice S50000x64 ![0, 0] (W2 (F := Ideal) m ρ c (Proc.devRef .tc main_v6) : S50000x96.Idx → EReal) slices_S50000x96_S50000x64_0_0 := by
  show StableHlo.after hostOps1 (W2 m ρ c) (Proc.devRef .tc main_v7) = _
  after_results

/-- The right part is the slice at columns 64..95. -/
theorem read_v8 (c : Dev nD) :
    (V3 (F := Ideal) m ρ c main_v8 : S50000x32.Idx → EReal)
      = extractStridedSlice S50000x32 ![0, 64] (W2 (F := Ideal) m ρ c (Proc.devRef .tc main_v6) : S50000x96.Idx → EReal) slices_S50000x96_S50000x32_0_64 := by
  show StableHlo.after hostOps1 (W2 m ρ c) (Proc.devRef .tc main_v8) = _
  after_results

/-! ### The two outputs of the wide layer -/

/-- The left 64 columns of the wide affine layer, at an entry: the product of X with the left weight matrix, the bias there
    being the zero word, which adds nothing. -/
theorem wide_left (X : S50000x1433.Idx → EReal) (A : S1433x64.Idx → EReal) (B : S1433x32.Idx → EReal) (b : S32.Idx → EReal)
    (r : Fin 50000) (q : Fin 64) :
    extractStridedSlice S50000x64 ![0, 0]
        (affine X (concatenate S1433x96 1 [⟨S1433x64, A⟩, ⟨S1433x32, B⟩] concatenates_S1433x64_S1433x32_S1433x96_d1)
          (shapeCast S1x96 (concatenate S96 0 [⟨S64, broadcastInDim S64 ![] bcast_S_S64 (constant (F := Ideal) S_ .f32 0x00000000#32)⟩, ⟨S32, b⟩]
            concatenates_S64_S32_S96_d0) shapeCasts_S96_S1x96))
        slices_S50000x96_S50000x64_0_0 (ix2 r q) = proj X A (ix2 r q) := by
  rw [cut_left, ← affine_zero_bias X A (fun _ => 0) (fun _ => rfl)]
  exact affine_cols X _ A _ _ r _ q (fun k => side_left A B k q) (bias_left b q)

/-- The right 32 columns of the wide affine layer, at an entry: the affine layer of X with the right weight matrix and the bias b. -/
theorem wide_right (X : S50000x1433.Idx → EReal) (A : S1433x64.Idx → EReal) (B : S1433x32.Idx → EReal) (b : S32.Idx → EReal)
    (r : Fin 50000) (q : Fin 32) :
    extractStridedSlice S50000x32 ![0, 64]
        (affine X (concatenate S1433x96 1 [⟨S1433x64, A⟩, ⟨S1433x32, B⟩] concatenates_S1433x64_S1433x32_S1433x96_d1)
          (shapeCast S1x96 (concatenate S96 0 [⟨S64, broadcastInDim S64 ![] bcast_S_S64 (constant (F := Ideal) S_ .f32 0x00000000#32)⟩, ⟨S32, b⟩]
            concatenates_S64_S32_S96_d0) shapeCasts_S96_S1x96))
        slices_S50000x96_S50000x32_0_64 (ix2 r q) = affine X B (biasRow b) (ix2 r q) := by
  rw [cut_right]
  exact affine_cols X _ B _ _ r _ q (fun k => side_right A B k q) (bias_right b q)

/-- The left part, whole: the product of x with W_gcn. -/
theorem xw_value (c : Dev nD) :
    (V3 (F := Ideal) m ρ c main_v7 : S50000x64.Idx → EReal)
      = proj ((m ((c : Thread nD τ).loc main_arg0)) : S50000x1433.Idx → EReal) ((m ((c : Thread nD τ).loc main_arg2)) : S1433x64.Idx → EReal) := by
  rw [read_v7, read_v6, read_v0, read_v2, read_v5]
  funext j
  rw [eq_ix2 (n0 := 50000) (n1 := 64) j]
  exact wide_left _ _ _ _ (j 0) (j 1)

/-- The right part, whole: the affine layer of x with W_ps and b_ps. -/
theorem zsem_value (c : Dev nD) :
    (V3 (F := Ideal) m ρ c main_v8 : S50000x32.Idx → EReal)
      = affine ((m ((c : Thread nD τ).loc main_arg0)) : S50000x1433.Idx → EReal) ((m ((c : Thread nD τ).loc main_arg6)) : S1433x32.Idx → EReal) (biasRow ((m ((c : Thread nD τ).loc main_arg7)) : S32.Idx → EReal)) := by
  rw [read_v8, read_v6, read_v0, read_v2, read_v5]
  funext j
  rw [eq_ix2 (n0 := 50000) (n1 := 32) j]
  exact wide_right _ _ _ _ (j 0) (j 1)

end Cert.Bridge.KPre
-- ==== Proof.KPost.lean ====
/-
  The small host reads around the kernel program's second region, at the extended reals.

  Before the region the host makes each of its five small operands from an ARGUMENT of the program: three bias vectors
  [N] are reshaped to rows [1, N] (the row's entry of column j is the vector's entry j: `biasRow`), and two weight
  matrices are cast to bf16, which at the extended reals is the identity. No earlier host operation and not the first
  region writes an argument, so each argument still holds its launch contents where these operations read it.

  After the region the one host operation reshapes the column [50000, 1] to a vector [50000], whose entry i is the
  column's entry (i, 0); every other buffer stays as the region left it, and an input window's array (the right half of
  the first region's output) stays through the region as it was entered.
-/
import proofs.«137820_j7103875908246_1_alg».proof.Proof.KernelIdealFrameP
import proofs.«137820_j7103875908246_1_alg».proof.Proof.Spec

noncomputable section

namespace Cert.Bridge.KPost
open Idealize.ShloMosaic Idealize.ShloMosaic.TcCoe Idealize.ShloMosaic.ValueIdx Idealize.SL.Sem
open Cert.Lib.Dense Cert.Lib.Rectify Cert.Bridge
open Cert.KernelIdeal Cert.KernelIdeal.Gen Cert.KernelIdeal.GenP
variable (m : (ℓ : Loc nD τ sig) → Buf (Elt Ideal) ℓ) (ρ : Dev nD → PrngReg)

/-- None of a literal list of host operations writes the buffer at hand: each operation writes one buffer, and that
    reference differs from the buffer's. -/
local macro "none_writes" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The arguments read before the second region hold their launch contents

The first region's arrays are none of them, and none of the first stretch's operations writes one. -/

theorem W2_arg3 (c : Dev nD) : W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (by none_writes hostOps0)
    _ = m ((c : Thread nD τ).loc main_arg3) := rfl

theorem W2_arg4 (c : Dev nD) : W2 (F := Ideal) m ρ c (Proc.devRef .tc main_arg4) = m ((c : Thread nD τ).loc main_arg4) :=
  calc W2 (F := Ideal) m ρ c (Proc.devRef .tc main_arg4)
    _ = W1 m ρ c (Proc.devRef .tc main_arg4) := W2_of_ne m ρ c main_arg4 (by decide)
    _ = W0 m ρ c (Proc.devRef .tc main_arg4) :=
          StableHlo.after_of_forall_not_mem (b := Proc.devRef .tc main_arg4) _ _ (by none_writes hostOps0)
    _ = m ((c : Thread nD τ).loc main_arg4) := rfl

theorem W2_arg5 (c : Dev nD) : W2 (F := Ideal) m ρ c (Proc.devRef .tc main_arg5) = m ((c : Thread nD τ).loc main_arg5) :=
  calc W2 (F := Ideal) m ρ c (Proc.devRef .tc main_arg5)
    _ = W1 m ρ c (Proc.devRef .tc main_arg5) := W2_of_ne m ρ c main_arg5 (by decide)
    _ = W0 m ρ c (Proc.devRef .tc main_arg5) :=
          StableHlo.after_of_forall_not_mem (b := Proc.devRef .tc main_arg5) _ _ (by none_writes hostOps0)
    _ = m ((c : Thread nD τ).loc main_arg5) := rfl

theorem W2_arg8 (c : Dev nD) : W2 (F := Ideal) m ρ c (Proc.devRef .tc main_arg8) = m ((c : Thread nD τ).loc main_arg8) :=
  calc W2 (F := Ideal) m ρ c (Proc.devRef .tc main_arg8)
    _ = W1 m ρ c (Proc.devRef .tc main_arg8) := W2_of_ne m ρ c main_arg8 (by decide)
    _ = W0 m ρ c (Proc.devRef .tc main_arg8) :=
          StableHlo.after_of_forall_not_mem (b := Proc.devRef .tc main_arg8) _ _ (by none_writes hostOps0)
    _ = m ((c : Thread nD τ).loc main_arg8) := rfl

theorem W2_arg9 (c : Dev nD) : W2 (F := Ideal) m ρ c (Proc.devRef .tc main_arg9) = m ((c : Thread nD τ).loc main_arg9) :=
  calc W2 (F := Ideal) m ρ c (Proc.devRef .tc main_arg9)
    _ = W1 m ρ c (Proc.devRef .tc main_arg9) := W2_of_ne m ρ c main_arg9 (by decide)
    _ = W0 m ρ c (Proc.devRef .tc main_arg9) :=
          StableHlo.after_of_forall_not_mem (b := Proc.devRef .tc main_arg9) _ _ (by none_writes hostOps0)
    _ = m ((c : Thread nD τ).loc main_arg9) := rfl

/-! ## The second region's small operands

Each is the last stretch's one operation on an argument: a reshape [N] → [1, N], or a cast to bf16 (the identity here). -/

theorem V3_v49 (c : Dev nD) : (V3 (F := Ideal) m ρ c main_v49 : S1x64.Idx → EReal) = biasRow ((m ((c : Thread nD τ).loc main_arg3)) : S64.Idx → EReal) := by
  have e : (V3 (F := Ideal) m ρ c main_v49 : S1x64.Idx → EReal)
      = shapeCast S1x64 (W2 (F := Ideal) m ρ c (Proc.devRef .tc main_arg3) : S64.Idx → EReal) shapeCasts_S64_S1x64 := by
    show StableHlo.after hostOps1 (W2 m ρ c) (Proc.devRef .tc main_v49) = _
    after_results
    rfl
  rw [e, W2_arg3]
  exact shapeCast_row _ _

theorem V3_v52 (c : Dev nD) : (V3 (F := Ideal) m ρ c main_v52 : S64x32.Idx → EReal) = ((m ((c : Thread nD τ).loc main_arg4)) : S64x32.Idx → EReal) := by
  have e : (V3 (F := Ideal) m ρ c main_v52 : S64x32.Idx → EReal)
      = (W2 (F := Ideal) m ρ c (Proc.devRef .tc main_arg4) : S64x32.Idx → EReal) := by
    show StableHlo.after hostOps1 (W2 m ρ c) (Proc.devRef .tc main_v52) = _
    after_results
    rfl
  rw [e, W2_arg4]

theorem V3_v50 (c : Dev nD) : (V3 (F := Ideal) m ρ c main_v50 : S1x32.Idx → EReal) = biasRow ((m ((c : Thread nD τ).loc main_arg5)) : S32.Idx → EReal) := by
  have e : (V3 (F := Ideal) m ρ c main_v50 : S1x32.Idx → EReal)
      = shapeCast S1x32 (W2 (F := Ideal) m ρ c (Proc.devRef .tc main_arg5) : S32.Idx → EReal) shapeCasts_S32_S1x32 := by
    show StableHlo.after hostOps1 (W2 m ρ c) (Proc.devRef .tc main_v50) = _
    after_results
    rfl
  rw [e, W2_arg5]
  exact shapeCast_row _ _

theorem V3_v53 (c : Dev nD) : (V3 (F := Ideal) m ρ c main_v53 : S32x7.Idx → EReal) = ((m ((c : Thread nD τ).loc main_arg8)) : S32x7.Idx → EReal) := by
  have e : (V3 (F := Ideal) m ρ c main_v53 : S32x7.Idx → EReal)
      = (W2 (F := Ideal) m ρ c (Proc.devRef .tc main_arg8) : S32x7.Idx → EReal) := by
    show StableHlo.after hostOps1 (W2 m ρ c) (Proc.devRef .tc main_v53) = _
    after_results
    rfl
  rw [e, W2_arg8]

theorem V3_v51 (c : Dev nD) : (V3 (F := Ideal) m ρ c main_v51 : S1x7.Idx → EReal) = biasRow ((m ((c : Thread nD τ).loc main_arg9)) : S7.Idx → EReal) := by
  have e : (V3 (F := Ideal) m ρ c main_v51 : S1x7.Idx → EReal)
      = shapeCast S1x7 (W2 (F := Ideal) m ρ c (Proc.devRef .tc main_arg9) : S7.Idx → EReal) shapeCasts_S7_S1x7 := by
    show StableHlo.after hostOps1 (W2 m ρ c) (Proc.devRef .tc main_v51) = _
    after_results
    rfl
  rw [e, W2_arg9]
  exact shapeCast_row _ _

/-! ## After the second region

The one host operation writes the vector [50000] only. -/

theorem W5_v54_0 (c : Dev nD) : W5 (F := Ideal) m ρ c (Proc.devRef .tc main_v54_0) = W4 (F := Ideal) m ρ c (Proc.devRef .tc main_v54_0) :=
  StableHlo.after_of_forall_not_mem (b := Proc.devRef .tc main_v54_0) _ _ (by none_writes hostOps2)
theorem W5_v54_2 (c : Dev nD) : W5 (F := Ideal) m ρ c (Proc.devRef .tc main_v54_2) = W4 (F := Ideal) m ρ c (Proc.devRef .tc main_v54_2) :=
  StableHlo.after_of_forall_not_mem (b := Proc.devRef .tc main_v54_2) _ _ (by none_writes hostOps2)

/-- The right half of the first region's output is the array of the second region's input window 1: never written
    back, it leaves the region as it entered. -/
theorem W5_v8 (c : Dev nD) : W5 (F := Ideal) m ρ c (Proc.devRef .tc main_v8) = W3 (F := Ideal) m ρ c (Proc.devRef .tc main_v8) :=
  calc W5 (F := Ideal) m ρ c (Proc.devRef .tc main_v8)
    _ = W4 m ρ c (Proc.devRef .tc main_v8) :=
          StableHlo.after_of_forall_not_mem (b := Proc.devRef .tc main_v8) _ _ (by none_writes hostOps2)
    _ = (dat1 (V3 m ρ) c).arrAt 1 cfg1.N := W4_arr m ρ c 1
    _ = (dat1 (V3 m ρ) c).A 1 := Pipeline.Dat.arrAt_in _ 1 rfl cfg1.N
    _ = W3 m ρ c (Proc.devRef .tc main_v8) := A_eq1 (V3 m ρ) c 1

/-- The column [50000, 1] as a vector [50000]: entry i is the column's entry (i, 0), the two having the same row-major
    position i. -/
theorem W5_v55 (c : Dev nD) :
    (W5 (F := Ideal) m ρ c (Proc.devRef .tc main_v55) : S50000.Idx → EReal)
      = fun i => (W4 (F := Ideal) m ρ c (Proc.devRef .tc main_v54_1) : S50000x1.Idx → EReal) (ix2 (i 0) 0) := by
  have e : (W5 (F := Ideal) m ρ c (Proc.devRef .tc main_v55) : S50000.Idx → EReal)
      = shapeCast S50000 (W4 (F := Ideal) m ρ c (Proc.devRef .tc main_v54_1) : S50000x1.Idx → EReal) shapeCasts_S50000x1_S50000 := by
    show StableHlo.after hostOps2 (W4 m ρ c) (Proc.devRef .tc main_v55) = _
    after_results
    rfl
  rw [e]
  funext i
  refine shapeCast_apply _ _ i (ix2 (i 0) 0) ?_
  rw [Shape.rowMajor_val_one, Shape.rowMajor_val_two]
  show (i 0).val * 1 + 0 = (i 0).val
  omega

end Cert.Bridge.KPost
-- ==== Proof.Agg.lean ====
/-
  The aggregation over the edges that both programs apply to the projected features: for every edge (and every
  self-loop) the source node's row, scaled by the product of the inverse square roots of the two end nodes' degrees,
  is added into the destination node's row. It is kept as one function of the projected features and the edge
  array; nothing here opens it.
-/
import proofs.«137820_j7103875908246_1_alg».proof.Proof.Gen.ReferenceIdeal.Read

noncomputable section

namespace Cert.Bridge
open Idealize.ShloMosaic
open Cert.ReferenceIdeal Cert.ReferenceIdeal.Gen Cert.ReferenceIdeal.Read

/-- The symmetric-normalised sum over incoming edges of the rows of `xw`, as the host operations write it. -/
def aggR {F : FTy → Type} [FloatOps F] (xw : (⟨S50000x64, .f32⟩ : BufTy).Contents (Elt F))
    (e : (⟨S2x1600000, .i32⟩ : BufTy).Contents (Elt F)) : (⟨S50000x64, .f32⟩ : BufTy).Contents (Elt F) :=
  Host.scatterAdd scatter_S50000x64_S1650000x1_S1650000x64_1_0_0_1 (val_main_v38 (F := F)) (val_main_v39 (F := F) e)
    (mulf (Host.gather gather_S50000x64_S1650000x1_S1650000x64_1_0_n_n_0_1_164 xw (val_main_v33 (F := F) e)) (val_main_v36 (F := F) e))

/-- The reference's aggregated features are that function of its projected features. -/
theorem v40_eq {F : FTy → Type} [FloatOps F] (x0 : (⟨S50000x1433, .f32⟩ : BufTy).Contents (Elt F))
    (x1 : (⟨S2x1600000, .i32⟩ : BufTy).Contents (Elt F)) (x2 : (⟨S1433x64, .f32⟩ : BufTy).Contents (Elt F)) :
    val_main_v40 (F := F) x0 x1 x2 = aggR (val_main_v7 (F := F) x0 x2) x1 := rfl

end Cert.Bridge
-- ==== Proof.KAgg.lean ====
/-
  The kernel program's aggregated features are the shared aggregation of its projected features.

  Between its two regions the kernel program gathers, for every edge and every self-loop, the source node's row of the
  projected features, scales it by the product of the inverse square roots of the degrees of the edge's two end
  nodes, and adds it into the destination node's row: the same host operations, in the same order and with the same
  dimension records, as the reference applies to its own projected features. Read as one term of the projected
  features and the edge array, it is the function `aggR`; the edge array is an argument no operation writes.
-/
import proofs.«137820_j7103875908246_1_alg».proof.Proof.KernelIdealFrameP
import proofs.«137820_j7103875908246_1_alg».proof.Proof.Agg

noncomputable section
namespace Cert.Bridge.KAgg
open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (ρ : Dev nD → PrngReg)

/-- The edge array at the first region's exit is the launched one: the first region has no window on it and the host
    operations before it do not write it. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

set_option maxRecDepth 16384 in
set_option maxHeartbeats 8000000 in
/-- The second region finds, as its first operand, the aggregation of the left columns of the first region's output
    along the launched edge array. -/
theorem V3_v48 (c : Dev nD) :
    V3 m ρ c main_v48 = Cert.Bridge.aggR (V3 m ρ c main_v7) (m ((c : Thread nD τ).loc main_arg1)) := by
  rw [← W2_arg1 m ρ c]
  show StableHlo.after hostOps1 (W2 m ρ c) (Proc.devRef .tc main_v48)
      = Cert.Bridge.aggR (StableHlo.after hostOps1 (W2 m ρ c) (Proc.devRef .tc main_v7)) (W2 m ρ c (Proc.devRef .tc main_arg1))
  generalize W2 m ρ c = w
  after_results_simp
  unfold Cert.Bridge.aggR Cert.ReferenceIdeal.Read.val_main_v38 Cert.ReferenceIdeal.Read.val_main_cst_6 Cert.ReferenceIdeal.Read.val_main_v39 Cert.ReferenceIdeal.Read.val_main_v6 Cert.ReferenceIdeal.Read.val_main_v3 Cert.ReferenceIdeal.Read.val_main_v2 Cert.ReferenceIdeal.Read.val_main_v4 Cert.ReferenceIdeal.Read.val_main_v33 Cert.ReferenceIdeal.Read.val_main_v32 Cert.ReferenceIdeal.Read.val_main_v29 Cert.ReferenceIdeal.Read.val_main_v28 Cert.ReferenceIdeal.Read.val_main_c_4 Cert.ReferenceIdeal.Read.val_main_v31 Cert.ReferenceIdeal.Read.val_main_v30 Cert.ReferenceIdeal.Read.val_main_c_5 Cert.ReferenceIdeal.Read.val_main_v5 Cert.ReferenceIdeal.Read.val_main_v1 Cert.ReferenceIdeal.Read.val_main_v0 Cert.ReferenceIdeal.Read.val_main_v36 Cert.ReferenceIdeal.Read.val_main_v35 Cert.ReferenceIdeal.Read.val_main_v27 Cert.ReferenceIdeal.Read.val_main_v19 Cert.ReferenceIdeal.Read.val_main_v12 Cert.ReferenceIdeal.Read.val_main_v11 Cert.ReferenceIdeal.Read.val_main_v9 Cert.ReferenceIdeal.Read.val_main_cst_0 Cert.ReferenceIdeal.Read.val_main_v10 Cert.ReferenceIdeal.Read.val_main_v8 Cert.ReferenceIdeal.Read.val_main_cst Cert.ReferenceIdeal.Read.val_main_v18 Cert.ReferenceIdeal.Read.val_main_v17 Cert.ReferenceIdeal.Read.val_main_v14 Cert.ReferenceIdeal.Read.val_main_v13 Cert.ReferenceIdeal.Read.val_main_c Cert.ReferenceIdeal.Read.val_main_v16 Cert.ReferenceIdeal.Read.val_main_v15 Cert.ReferenceIdeal.Read.val_main_c_1 Cert.ReferenceIdeal.Read.val_main_v26 Cert.ReferenceIdeal.Read.val_main_v25 Cert.ReferenceIdeal.Read.val_main_v24 Cert.ReferenceIdeal.Read.val_main_v21 Cert.ReferenceIdeal.Read.val_main_v20 Cert.ReferenceIdeal.Read.val_main_c_2 Cert.ReferenceIdeal.Read.val_main_v23 Cert.ReferenceIdeal.Read.val_main_v22 Cert.ReferenceIdeal.Read.val_main_c_3
  rfl

end Cert.Bridge.KAgg
-- ==== Proof.KValue.lean ====
/-
  The kernel program's four results as functions of its arguments.

  Followed back through the program — the last host operation, the second region's output arrays, the operands that
  region finds, the aggregation, the first region's output cut in two — the class scores, the anomaly scores, z_topo
  and z_sem are the specification's terms of the launched arguments: z_sem the affine layer x W_ps + b_ps, z_topo the
  affine layer over the rectified, biased aggregation of x W_gcn, the class scores the affine layer over z_topo, and a
  node's anomaly score the distance between its rows of z_topo and z_sem.
-/
import proofs.«137820_j7103875908246_1_alg».proof.Proof.KRegion1
import proofs.«137820_j7103875908246_1_alg».proof.Proof.KPre
import proofs.«137820_j7103875908246_1_alg».proof.Proof.KPost
import proofs.«137820_j7103875908246_1_alg».proof.Proof.KAgg

noncomputable section
namespace Cert.Bridge.KValue
open Idealize.ShloMosaic Idealize.ShloMosaic.TcCoe Idealize.ShloMosaic.ValueIdx Idealize.SL.Sem
open Cert.Lib.Dense Cert.Lib.Rectify Cert.Bridge
open Cert.KernelIdeal Cert.KernelIdeal.Gen Cert.KernelIdeal.GenP
variable (m : (ℓ : Loc nD τ sig) → Buf (Elt Ideal) ℓ) (ρ : Dev nD → PrngReg)

/-- z_sem of the launched arguments. -/
abbrev zsemS (c : Dev nD) : S50000x32.Idx → EReal := affine (m ((c : Thread nD τ).loc main_arg0) : S50000x1433.Idx → EReal) (m ((c : Thread nD τ).loc main_arg6) : S1433x32.Idx → EReal) (biasRow (m ((c : Thread nD τ).loc main_arg7) : S32.Idx → EReal))
/-- z_topo of the launched arguments. -/
abbrev ztopoS (c : Dev nD) : S50000x32.Idx → EReal := affine (hidden (aggR (F := Ideal) (proj (m ((c : Thread nD τ).loc main_arg0) : S50000x1433.Idx → EReal) (m ((c : Thread nD τ).loc main_arg2) : S1433x64.Idx → EReal)) (m ((c : Thread nD τ).loc main_arg1))) (biasRow (m ((c : Thread nD τ).loc main_arg3) : S64.Idx → EReal))) (m ((c : Thread nD τ).loc main_arg4) : S64x32.Idx → EReal) (biasRow (m ((c : Thread nD τ).loc main_arg5) : S32.Idx → EReal))

/-- The second region's first operand, of the launched arguments. -/
theorem V3_v48_args (c : Dev nD) :
    (V3 (F := Ideal) m ρ c main_v48 : S50000x64.Idx → EReal)
      = aggR (F := Ideal) (proj (m ((c : Thread nD τ).loc main_arg0) : S50000x1433.Idx → EReal) (m ((c : Thread nD τ).loc main_arg2) : S1433x64.Idx → EReal)) (m ((c : Thread nD τ).loc main_arg1)) := by
  rw [KAgg.V3_v48 m ρ c, KPre.xw_value m ρ c]

/-- The last result: z_sem. -/
theorem res_v8 (c : Dev nD) : (W5 (F := Ideal) m ρ c (Proc.devRef .tc main_v8) : S50000x32.Idx → EReal) = zsemS m c := by
  rw [KPost.W5_v8 m ρ c]
  exact KPre.zsem_value m ρ c

/-- The third result: z_topo. -/
theorem res_v54_2 (c : Dev nD) : (W5 (F := Ideal) m ρ c (Proc.devRef .tc main_v54_2) : S50000x32.Idx → EReal) = ztopoS m c := by
  rw [KPost.W5_v54_2 m ρ c]
  refine (W4_arr m ρ c 9).trans ?_
  rw [K1.arr9 (V3 m ρ) c, V3_v48_args m ρ c, KPost.V3_v49 m ρ c, KPost.V3_v52 m ρ c, KPost.V3_v50 m ρ c]

/-- The first result: the class scores. -/
theorem res_v54_0 (c : Dev nD) :
    (W5 (F := Ideal) m ρ c (Proc.devRef .tc main_v54_0) : S50000x7.Idx → EReal)
      = affine (ztopoS m c) (m ((c : Thread nD τ).loc main_arg8) : S32x7.Idx → EReal) (biasRow (m ((c : Thread nD τ).loc main_arg9) : S7.Idx → EReal)) := by
  rw [KPost.W5_v54_0 m ρ c]
  refine (W4_arr m ρ c 7).trans ?_
  rw [K1.arr7 (V3 m ρ) c, V3_v48_args m ρ c, KPost.V3_v49 m ρ c, KPost.V3_v52 m ρ c, KPost.V3_v50 m ρ c, KPost.V3_v53 m ρ c,
    KPost.V3_v51 m ρ c]

/-- The second result: the anomaly scores. -/
theorem res_v55 (c : Dev nD) :
    (W5 (F := Ideal) m ρ c (Proc.devRef .tc main_v55) : S50000.Idx → EReal) = fun i => dist (ztopoS m c) (zsemS m c) (i 0) := by
  rw [KPost.W5_v55 m ρ c]
  funext i
  refine (congrFun (W4_arr m ρ c 8) _).trans ?_
  rw [K1.arr8 (V3 m ρ) c, V3_v48_args m ρ c, KPost.V3_v49 m ρ c, KPost.V3_v52 m ρ c, KPost.V3_v50 m ρ c, KPre.zsem_value m ρ c]
  rfl

end Cert.Bridge.KValue
-- ==== Proof.RefValue.lean ====
/-
  The reference program's four results, read at the extended reals as whole arrays in the specification's words.

  The semantic embedding is the affine layer of the features; the topological embedding is the affine layer of the
  hidden activations, which are the rectifier of the aggregated projection plus a bias row; the class scores are the
  affine layer of the topological embedding; the anomaly score of a node is the Euclidean distance between its rows
  of the two embeddings. The aggregation over the edges stays one unopened function of the projected features.

  Each host product is the row-major product of an [M, K] matrix with a [K, N] matrix, so each dense stage is an
  affine layer over the bias vector read as a row; the sum of squares along a row starts from the zero word, which
  adds nothing.
-/
import proofs.«137820_j7103875908246_1_alg».proof.Proof.Gen.ReferenceIdeal.Run
import proofs.«137820_j7103875908246_1_alg».proof.Proof.Gen.ReferenceIdeal.Read
import proofs.«137820_j7103875908246_1_alg».proof.Proof.Agg
import proofs.«137820_j7103875908246_1_alg».proof.Proof.Spec

noncomputable section

namespace Cert.Bridge.Ref
open Idealize.ShloMosaic Idealize.ShloMosaic.ValueIdx
open Cert.Lib.Dense Cert.Lib.Rectify Cert.Bridge
open Cert.ReferenceIdeal Cert.ReferenceIdeal.Gen Cert.ReferenceIdeal.Read

/-- The product of the features with the graph branch's weights contracts the one shared axis, row-major. -/
theorem dot_proj_eq : dot_S50000x1433_S1433x64_S50000x64_1_0_0_1_n_n = DotDims.plain 50000 1433 64 := rfl

/-- The product of the hidden activations with the topological weights is row-major too. -/
theorem dot_topo_eq : dot_S50000x64_S64x32_S50000x32_1_0_0_1_n_n = DotDims.plain 50000 64 32 := rfl

/-- So is the product of the features with the semantic weights. -/
theorem dot_sem_eq : dot_S50000x1433_S1433x32_S50000x32_1_0_0_1_n_n = DotDims.plain 50000 1433 32 := rfl

/-- And the product of the topological embedding with the class weights. -/
theorem dot_cls_eq : dot_S50000x32_S32x7_S50000x7_1_0_0_1_n_n = DotDims.plain 50000 32 7 := rfl

/-- Adding a bias vector, made a row [1, N] and then repeated down the rows, adds to entry (r, c) the row's entry
    of column c. -/
theorem host_bias_row {M N : Nat} (G : FVec Ideal ⟨2, ![M, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf G (broadcastInDim ⟨2, ![M, N]⟩ ![0, 1] e2 (broadcastInDim ⟨2, ![1, N]⟩ ![1] e1 b))
      = fun j => G j + biasRow b (ix2 0 (j 1)) := by
  funext j
  show G j + broadcastInDim ⟨2, ![M, N]⟩ ![0, 1] e2 (broadcastInDim ⟨2, ![1, N]⟩ ![1] e1 b) j = _
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The projected features: entry (r, c) is the sum over k of x (r, k) * W_gcn (k, c). -/
theorem proj_eq (x0 : (⟨S50000x1433, .f32⟩ : BufTy).Contents (Elt Ideal)) (x2 : (⟨S1433x64, .f32⟩ : BufTy).Contents (Elt Ideal)) :
    (val_main_v7 (F := Ideal) x0 x2 : S50000x64.Idx → EReal) = proj x0 x2 := by
  unfold val_main_v7
  rw [dot_proj_eq]
  funext j
  exact plain_dot_apply 50000 1433 64 none _ x0 x2 j

/-- The hidden activations: the rectifier of the aggregated projection plus the bias row. -/
theorem hidden_eq (x0 : (⟨S50000x1433, .f32⟩ : BufTy).Contents (Elt Ideal)) (x1 : (⟨S2x1600000, .i32⟩ : BufTy).Contents (Elt Ideal)) (x2 : (⟨S1433x64, .f32⟩ : BufTy).Contents (Elt Ideal)) (x3 : (⟨S64, .f32⟩ : BufTy).Contents (Elt Ideal)) :
    (val_main_v44 (F := Ideal) x0 x1 x2 x3 : S50000x64.Idx → EReal) = hidden (aggR (F := Ideal) (proj x0 x2) x1) (biasRow x3) := by
  unfold val_main_v44 val_main_v43 val_main_call0_v0 val_main_call0_cst val_main_v42 val_main_v41
  rw [v40_eq, proj_eq]
  generalize aggR (F := Ideal) (proj x0 x2) x1 = G
  rw [host_bias_row G x3 bcast_S64_S1x64_1 bcast_S1x64_S50000x64_0_1]
  exact relu_host _ bcast_S_S50000x64

/-- The square root of the zero word plus the squared differences summed along row r is the distance between the
    two rows: the zero word adds nothing. -/
theorem dist_of_sum {M N : Nat} (Z S : (⟨2, ![M, N]⟩ : Shape).Idx → EReal) (r : Fin M) :
    Ideal.sqrt (Ideal.ofBits .f32 0x00000000#32 + ∑ k : Fin N, (Z (ix2 r k) - S (ix2 r k)) * (Z (ix2 r k) - S (ix2 r k)))
      = dist Z S r := by
  rw [Ideal.ofBits_zero_f32, zero_add]
  rfl

/-- The reduction along the columns reads row `i 0` at column k. -/
theorem idx_row (i : S50000.Idx) (k : Fin 32) : idx_main_v59 i k = ix2 (n0 := 50000) (n1 := 32) (i 0) k :=
  funext fun a => Fin.ext (by match a with | ⟨0, _⟩ => rfl | ⟨1, _⟩ => rfl)

/-- The semantic embedding is the affine layer of the features over the semantic weights and bias. -/
theorem out3 (x0 : (⟨S50000x1433, .f32⟩ : BufTy).Contents (Elt Ideal)) (x6 : (⟨S1433x32, .f32⟩ : BufTy).Contents (Elt Ideal)) (x7 : (⟨S32, .f32⟩ : BufTy).Contents (Elt Ideal)) :
    (val_main_v52 (F := Ideal) x0 x6 x7 : S50000x32.Idx → EReal) = affine x0 x6 (biasRow x7) := by
  unfold val_main_v52 val_main_v49 val_main_v51 val_main_v50
  rw [dot_sem_eq]
  exact host_affine_row x0 x6 x7 bcast_S32_S1x32_1 bcast_S1x32_S50000x32_0_1

/-- The topological embedding is the affine layer of the hidden activations over the topological weights and bias. -/
theorem out2 (x0 : (⟨S50000x1433, .f32⟩ : BufTy).Contents (Elt Ideal)) (x1 : (⟨S2x1600000, .i32⟩ : BufTy).Contents (Elt Ideal)) (x2 : (⟨S1433x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    (val_main_v48 (F := Ideal) x0 x1 x2 x3 x4 x5 : S50000x32.Idx → EReal) = affine (hidden (aggR (F := Ideal) (proj x0 x2) x1) (biasRow x3)) x4 (biasRow x5) := by
  unfold val_main_v48 val_main_v45 val_main_v47 val_main_v46
  rw [hidden_eq, dot_topo_eq]
  exact host_affine_row _ x4 x5 bcast_S32_S1x32_1 bcast_S1x32_S50000x32_0_1

/-- The class scores are the affine layer of the topological embedding over the class weights and bias. -/
theorem out0 (x0 : (⟨S50000x1433, .f32⟩ : BufTy).Contents (Elt Ideal)) (x1 : (⟨S2x1600000, .i32⟩ : BufTy).Contents (Elt Ideal)) (x2 : (⟨S1433x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x8 : (⟨S32x7, .f32⟩ : BufTy).Contents (Elt Ideal)) (x9 : (⟨S7, .f32⟩ : BufTy).Contents (Elt Ideal)) :
    (val_main_v56 (F := Ideal) x0 x1 x2 x3 x4 x5 x8 x9 : S50000x7.Idx → EReal) = affine (affine (hidden (aggR (F := Ideal) (proj x0 x2) x1) (biasRow x3)) x4 (biasRow x5)) x8 (biasRow x9) := by
  unfold val_main_v56 val_main_v53 val_main_v55 val_main_v54
  rw [out2, dot_cls_eq]
  exact host_affine_row _ x8 x9 bcast_S7_S1x7_1 bcast_S1x7_S50000x7_0_1

/-- The anomaly score of node r is the distance between row r of the topological and of the semantic embedding:
    the entries summed along the row are the squared differences, read at (r, k). -/
theorem out1 (x0 : (⟨S50000x1433, .f32⟩ : BufTy).Contents (Elt Ideal)) (x1 : (⟨S2x1600000, .i32⟩ : BufTy).Contents (Elt Ideal)) (x2 : (⟨S1433x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S1433x32, .f32⟩ : BufTy).Contents (Elt Ideal)) (x7 : (⟨S32, .f32⟩ : BufTy).Contents (Elt Ideal)) :
    (val_main_v60 (F := Ideal) x0 x1 x2 x3 x4 x5 x6 x7 : S50000.Idx → EReal)
      = fun i => dist (affine (hidden (aggR (F := Ideal) (proj x0 x2) x1) (biasRow x3)) x4 (biasRow x5)) (affine x0 x6 (biasRow x7)) (i 0) := by
  funext i
  rw [val_main_v60_apply, val_main_v59_apply, val_main_cst_7_apply, Ideal.hostUnary_sqrt_def, Ideal.ofBits_def]
  refine Eq.trans (congrArg (fun s : EReal => Ideal.sqrt (Ideal.ofBits .f32 0x00000000#32 + s))
    (Finset.sum_congr rfl fun k _ => ?_)) (dist_of_sum _ _ (i 0))
  rw [idx_row i k, val_main_v58_apply, val_main_v57_apply, out2, out3]
  rfl

end Cert.Bridge.Ref
-- ==== Proof.lean ====
/-
  The certificate of a two-branch node classifier: a graph-convolution branch and a semantic branch over the same
  node features, class scores on the graph branch and, per node, the Euclidean distance between the two branches'
  embeddings as an anomaly score.

  The kernel program computes x [W_gcn | W_ps] + [0 | b_ps] in ONE blocked product over 25 row blocks and cuts the
  result in two; the left part is aggregated over the edges (degree-normalised, with self-loops) by host operations,
  and a second blocked region adds b_gcn, rectifies, applies the two small affine layers and takes the row-wise
  distance to the right part. The reference computes the same quantities with whole-array host operations. At the
  extended reals the two agree entry by entry: a column of the side-by-side weight matrix is a column of one of the two
  matrices, so a left entry of the joint product is the entry of x W_gcn plus the zero word, which adds nothing, and a
  right entry is the entry of x W_ps + b_ps; a block of rows of an affine layer, of the rectifier or of the row-wise
  distance looks only at its own rows; the aggregation is the same function of the projected features and the edge
  array on both sides and is never opened; and a changed float format is the identity. No law used needs finiteness,
  so the precondition is not opened.

  The frames of the two kernel programs are the generated ones; the reference's is its generated run with the results
  dropped. The idealization rewrote nothing, so there is nothing to preserve.
-/
import proofs.«137820_j7103875908246_1_alg».proof.Defs
import proofs.«137820_j7103875908246_1_alg».proof.Proof.Gen.Kernel
import proofs.«137820_j7103875908246_1_alg».proof.Proof.KernelFrameP
import proofs.«137820_j7103875908246_1_alg».proof.Proof.Gen.KernelIdeal
import proofs.«137820_j7103875908246_1_alg».proof.Proof.KernelIdealFrameP
import proofs.«137820_j7103875908246_1_alg».proof.Proof.KernelIdealRunP
import proofs.«137820_j7103875908246_1_alg».proof.Proof.Gen.ReferenceIdeal
import proofs.«137820_j7103875908246_1_alg».proof.Proof.Gen.ReferenceIdeal.Run
import proofs.«137820_j7103875908246_1_alg».proof.Proof.Gen.ReferenceIdeal.Read
import proofs.«137820_j7103875908246_1_alg».proof.Proof.Gen.Pre_finite_inputs
import proofs.«137820_j7103875908246_1_alg».proof.Proof.KValue
import proofs.«137820_j7103875908246_1_alg».proof.Proof.RefValue
import Idealize.ShloMosaic.Adequacy
import Idealize.ShloMosaic.Init

noncomputable section

namespace Cert.Proof

open Idealize.ShloMosaic Idealize.SL.Sem
open Cert.Bridge

/-- The word-level kernel program runs and leaves its arguments as launched. -/
theorem frame_k : Cert.frame_Kernel := fun m ρ _ => Cert.Kernel.GenP.frame m ρ

/-- The idealized kernel program runs and leaves its arguments as launched. -/
theorem frame_ki : Cert.frame_KernelIdeal := fun m ρ _ => Cert.KernelIdeal.GenP.frame m ρ

/-- The reference runs and leaves its arguments as launched: its run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the ten arguments both programs end with the class scores, the anomaly scores,
    z_topo and z_sem at the same extended reals: each side's results are the specification's terms of its own
    arguments, and the arguments agree. -/
theorem algebraic : Cert.algebraic_KernelIdeal_ReferenceIdeal := by
  intro m ρ m' ρ' _ hagree
  refine ⟨_, _, _, _, (θ_run Cert.KernelIdeal.defs _ _).mono
      (fun _ h c => ⟨(h c).1.trans (KValue.res_v54_0 m ρ c), (h c).2.1.trans (KValue.res_v55 m ρ c),
        (h c).2.2.1.trans (KValue.res_v54_2 m ρ c), (h c).2.2.2.1.trans (KValue.res_v8 m ρ c), (h c).2.2.2.2⟩)
      (Cert.KernelIdeal.GenP.run_results (F := Ideal) m ρ), ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · rw [Cert.ReferenceIdeal.Read.val_main_v56_eq, Ref.out0, (hagree c).1, (hagree c).2.1, (hagree c).2.2.1, (hagree c).2.2.2.1, (hagree c).2.2.2.2.1, (hagree c).2.2.2.2.2.1, (hagree c).2.2.2.2.2.2.2.2.1, (hagree c).2.2.2.2.2.2.2.2.2]
  · rw [Cert.ReferenceIdeal.Read.val_main_v60_eq, Ref.out1, (hagree c).1, (hagree c).2.1, (hagree c).2.2.1, (hagree c).2.2.2.1, (hagree c).2.2.2.2.1, (hagree c).2.2.2.2.2.1, (hagree c).2.2.2.2.2.2.1, (hagree c).2.2.2.2.2.2.2.1]
    rfl
  · rw [Cert.ReferenceIdeal.Read.val_main_v48_eq, Ref.out2, (hagree c).1, (hagree c).2.1, (hagree c).2.2.1, (hagree c).2.2.2.1, (hagree c).2.2.2.2.1, (hagree c).2.2.2.2.2.1]
  · rw [Cert.ReferenceIdeal.Read.val_main_v52_eq, Ref.out3, (hagree c).1, (hagree c).2.2.2.2.2.2.1, (hagree c).2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
